-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v129) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x32768x3 : Shape := ⟨3, ![32, 32768, 3]⟩
abbrev S2x4 : Shape := ⟨2, ![2, 4]⟩
abbrev S4 : Shape := ⟨1, ![4]⟩
abbrev S1x4 : Shape := ⟨2, ![1, 4]⟩
abbrev S_ : Shape := ⟨0, ![]⟩

class Facts : Prop where
  bcast_S_S32x32768x3 : S_.BroadcastsInDim S32x32768x3 (![] : Fin 0 → Fin S32x32768x3.rank)
  reducesTo_S32x32768x3_S_d0_1_2 : S32x32768x3.ReducesTo [0, 1, 2] S_
  h_S_ : 0 < S_.numel
  bcast_S_S2x4 : S_.BroadcastsInDim S2x4 (![] : Fin 0 → Fin S2x4.rank)
  reducesTo_S2x4_S_d0_1 : S2x4.ReducesTo [0, 1] S_
  bcast_S_S4 : S_.BroadcastsInDim S4 (![] : Fin 0 → Fin S4.rank)
  reducesTo_S4_S_d0 : S4.ReducesTo [0] S_
  bcast_S_S1x4 : S_.BroadcastsInDim S1x4 (![] : Fin 0 → Fin S1x4.rank)
  reducesTo_S1x4_S_d0_1 : S1x4.ReducesTo [0, 1] S_

variable [Facts]

def fn_part1 {F : FTy → Type} [FloatOps F] (main_arg4 : FVec F S1x4 .f32) (main_arg5 : FVec F S1x4 .f32) (main_v13 : IVec S_ 1) (main_v16 : IVec S2x4 1) : IVec S_ 1 :=
  let main_c_5 : IVec S_ 1 := constantI S_ 1 1#1
  let main_v17 : IVec S_ 1 := (fun x v => Host.reduce IntOp.andi x v reducesTo_S2x4_S_d0_1 h_S_) main_v16 main_c_5
  let main_v18 : IVec S_ 1 := andi main_v13 main_v17
  let main_v19 : FVec F S1x4 .f32 := Host.absf main_arg4
  let main_cst_6 : FVec F S_ .f32 := constant S_ .f32 0x7F800000#32
  let main_v20 : FVec F S1x4 .f32 := broadcastInDim S1x4 ![] bcast_S_S1x4 main_cst_6
  let main_v21 : IVec S1x4 1 := cmpf .olt main_v19 main_v20
  let main_c_7 : IVec S_ 1 := constantI S_ 1 1#1
  let main_v22 : IVec S_ 1 := (fun x v => Host.reduce IntOp.andi x v reducesTo_S1x4_S_d0_1 h_S_) main_v21 main_c_7
  let main_v23 : IVec S_ 1 := andi main_v18 main_v22
  let main_v24 : FVec F S1x4 .f32 := Host.absf main_arg5
  let main_cst_8 : FVec F S_ .f32 := constant S_ .f32 0x7F800000#32
  let main_v25 : FVec F S1x4 .f32 := broadcastInDim S1x4 ![] bcast_S_S1x4 main_cst_8
  let main_v26 : IVec S1x4 1 := cmpf .olt main_v24 main_v25
  let main_c_9 : IVec S_ 1 := constantI S_ 1 1#1
  let main_v27 : IVec S_ 1 := (fun x v => Host.reduce IntOp.andi x v reducesTo_S1x4_S_d0_1 h_S_) main_v26 main_c_9
  let main_v28 : IVec S_ 1 := andi main_v23 main_v27
  main_v28

def fn {F : FTy → Type} [FloatOps F] (main_arg0 : FVec F S32x32768x3 .f32) (main_arg1 : FVec F S2x4 .f32) (main_arg2 : FVec F S4 .f32) (main_arg3 : FVec F S2x4 .f32) (main_arg4 : FVec F S1x4 .f32) (main_arg5 : FVec F S1x4 .f32) : IVec S_ 1 :=
  let main_v0 : FVec F S32x32768x3 .f32 := Host.absf main_arg0
  let main_cst : FVec F S_ .f32 := constant S_ .f32 0x7F800000#32
  let main_v1 : FVec F S32x32768x3 .f32 := broadcastInDim S32x32768x3 ![] bcast_S_S32x32768x3 main_cst
  let main_v2 : IVec S32x32768x3 1 := cmpf .olt main_v0 main_v1
  let main_c : IVec S_ 1 := constantI S_ 1 1#1
  let main_v3 : IVec S_ 1 := (fun x v => Host.reduce IntOp.andi x v reducesTo_S32x32768x3_S_d0_1_2 h_S_) main_v2 main_c
  let main_v4 : FVec F S2x4 .f32 := Host.absf main_arg1
  let main_cst_0 : FVec F S_ .f32 := constant S_ .f32 0x7F800000#32
  let main_v5 : FVec F S2x4 .f32 := broadcastInDim S2x4 ![] bcast_S_S2x4 main_cst_0
  let main_v6 : IVec S2x4 1 := cmpf .olt main_v4 main_v5
  let main_c_1 : IVec S_ 1 := constantI S_ 1 1#1
  let main_v7 : IVec S_ 1 := (fun x v => Host.reduce IntOp.andi x v reducesTo_S2x4_S_d0_1 h_S_) main_v6 main_c_1
  let main_v8 : IVec S_ 1 := andi main_v3 main_v7
  let main_v9 : FVec F S4 .f32 := Host.absf main_arg2
  let main_cst_2 : FVec F S_ .f32 := constant S_ .f32 0x7F800000#32
  let main_v10 : FVec F S4 .f32 := broadcastInDim S4 ![] bcast_S_S4 main_cst_2
  let main_v11 : IVec S4 1 := cmpf .olt main_v9 main_v10
  let main_c_3 : IVec S_ 1 := constantI S_ 1 1#1
  let main_v12 : IVec S_ 1 := (fun x v => Host.reduce IntOp.andi x v reducesTo_S4_S_d0 h_S_) main_v11 main_c_3
  let main_v13 : IVec S_ 1 := andi main_v8 main_v12
  let main_v14 : FVec F S2x4 .f32 := Host.absf main_arg3
  let main_cst_4 : FVec F S_ .f32 := constant S_ .f32 0x7F800000#32
  let main_v15 : FVec F S2x4 .f32 := broadcastInDim S2x4 ![] bcast_S_S2x4 main_cst_4
  let main_v16 : IVec S2x4 1 := cmpf .olt main_v14 main_v15
  fn_part1 (F := F) main_arg4 main_arg5 main_v13 main_v16
-- ==== Kernel.lean ====
abbrev S32x32768x3 : Shape := ⟨3, ![32, 32768, 3]⟩
abbrev S2x4 : Shape := ⟨2, ![2, 4]⟩
abbrev S4 : Shape := ⟨1, ![4]⟩
abbrev S1x4 : Shape := ⟨2, ![1, 4]⟩
abbrev S32x32768x64 : Shape := ⟨3, ![32, 32768, 64]⟩
abbrev S1x8192x3 : Shape := ⟨3, ![1, 8192, 3]⟩
abbrev S1x8192x64 : Shape := ⟨3, ![1, 8192, 64]⟩
abbrev S8192x3 : Shape := ⟨2, ![8192, 3]⟩
abbrev S8192x1 : Shape := ⟨2, ![8192, 1]⟩
abbrev S8192 : Shape := ⟨1, ![8192]⟩
abbrev S8192x5 : Shape := ⟨2, ![8192, 5]⟩
abbrev S8192x7 : Shape := ⟨2, ![8192, 7]⟩
abbrev S8192x4 : Shape := ⟨2, ![8192, 4]⟩
abbrev S8192x3x1 : Shape := ⟨3, ![8192, 3, 1]⟩
abbrev S8192x1x4 : Shape := ⟨3, ![8192, 1, 4]⟩
abbrev S8192x3x4 : Shape := ⟨3, ![8192, 3, 4]⟩
abbrev S8192x5x1 : Shape := ⟨3, ![8192, 5, 1]⟩
abbrev S1x1x4 : Shape := ⟨3, ![1, 1, 4]⟩
abbrev S8192x5x4 : Shape := ⟨3, ![8192, 5, 4]⟩
abbrev S8192x7x1 : Shape := ⟨3, ![8192, 7, 1]⟩
abbrev S8192x7x4 : Shape := ⟨3, ![8192, 7, 4]⟩
abbrev S8192x16x4 : Shape := ⟨3, ![8192, 16, 4]⟩
abbrev S8192x64 : Shape := ⟨2, ![8192, 64]⟩
abbrev S32x32768x16x4 : Shape := ⟨4, ![32, 32768, 16, 4]⟩

abbrev nBuf : Space → Nat
  | .hbm => 8
  | .vmem => 9
  | .smem => 0
  | _ => 0

abbrev bufTy : (tb : Table) → Fin (tcTables nBuf tb) → BufTy
  | .hbm, ⟨0, _⟩ => ⟨S32x32768x3, .f32⟩
  | .hbm, ⟨1, _⟩ => ⟨S2x4, .f32⟩
  | .hbm, ⟨2, _⟩ => ⟨S4, .f32⟩
  | .hbm, ⟨3, _⟩ => ⟨S2x4, .f32⟩
  | .hbm, ⟨4, _⟩ => ⟨S1x4, .f32⟩
  | .hbm, ⟨5, _⟩ => ⟨S1x4, .f32⟩
  | .hbm, ⟨6, _⟩ => ⟨S32x32768x64, .f32⟩
  | .hbm, ⟨7, _⟩ => ⟨S32x32768x16x4, .f32⟩
  | .local _ .vmem, ⟨0, _⟩ => ⟨S1x8192x3, .f32⟩
  | .local _ .vmem, ⟨1, _⟩ => ⟨S1x8192x3, .f32⟩
  | .local _ .vmem, ⟨2, _⟩ => ⟨S2x4, .f32⟩
  | .local _ .vmem, ⟨3, _⟩ => ⟨S4, .f32⟩
  | .local _ .vmem, ⟨4, _⟩ => ⟨S2x4, .f32⟩
  | .local _ .vmem, ⟨5, _⟩ => ⟨S1x4, .f32⟩
  | .local _ .vmem, ⟨6, _⟩ => ⟨S1x4, .f32⟩
  | .local _ .vmem, ⟨7, _⟩ => ⟨S1x8192x64, .f32⟩
  | .local _ .vmem, ⟨8, _⟩ => ⟨S1x8192x64, .f32⟩
  | _, _ => ⟨S32x32768x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨2, ![32, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x8192x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S2x4 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S4 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S2x4 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x4 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x4 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x8192x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

class Facts₀ : Prop where
  inb_S1x8192x3_S1x8192x3_0_0_0 : ∀ a, (![0, 0, 0] : Fin 3 → Nat) a + S1x8192x3.size a ≤ S1x8192x3.size a
  h_S1x8192x3 : 0 < S1x8192x3.numel
  shapeCasts_S1x8192x3_S8192x3 : S1x8192x3.ShapeCasts S8192x3
  slices_S8192x3_o0_0_S8192x1 : S8192x3.Slices ![0, 0] S8192x1
  shapeCasts_S8192x1_S8192 : S8192x1.ShapeCasts S8192
  slices_S8192x3_o0_1_S8192x1 : S8192x3.Slices ![0, 1] S8192x1
  slices_S8192x3_o0_2_S8192x1 : S8192x3.Slices ![0, 2] S8192x1
  shapeCasts_S8192_S8192x1 : S8192.ShapeCasts S8192x1
  concatenates_S8192x1_S8192x1_S8192x1_S8192x3_d1 : Shape.Concatenates [S8192x1, S8192x1, S8192x1] S8192x3 1
  concatenates_S8192x1_S8192x1_S8192x1_S8192x1_S8192x1_S8192x5_d1 : Shape.Concatenates [S8192x1, S8192x1, S8192x1, S8192x1, S8192x1] S8192x5 1
  concatenates_S8192x1_S8192x1_S8192x1_S8192x1_S8192x1_S8192x1_S8192x1_S8192x7_d1 : Shape.Concatenates [S8192x1, S8192x1, S8192x1, S8192x1, S8192x1, S8192x1, S8192x1] S8192x7 1
  inb_S2x4_S2x4_0_0 : ∀ a, (![0, 0] : Fin 2 → Nat) a + S2x4.size a ≤ S2x4.size a
  h_S2x4 : 0 < S2x4.numel
  inb_S4_S4_0 : ∀ a, (![0] : Fin 1 → Nat) a + S4.size a ≤ S4.size a
  h_S4 : 0 < S4.numel
  inb_S1x4_S1x4_0_0 : ∀ a, (![0, 0] : Fin 2 → Nat) a + S1x4.size a ≤ S1x4.size a
  h_S1x4 : 0 < S1x4.numel
  slices_S2x4_o0_0_S1x4 : S2x4.Slices ![0, 0] S1x4
  shapeCasts_S1x4_S4 : S1x4.ShapeCasts S4
  shapeCasts_S4_S1x4 : S4.ShapeCasts S1x4
  slices_S2x4_o1_0_S1x4 : S2x4.Slices ![1, 0] S1x4
  broadcasts_S8192x1_S8192x4 : S8192x1.Broadcasts S8192x4
  broadcasts_S1x4_S8192x4 : S1x4.Broadcasts S8192x4
  shapeCasts_S8192x3_S8192x3x1 : S8192x3.ShapeCasts S8192x3x1
  shapeCasts_S8192x4_S8192x1x4 : S8192x4.ShapeCasts S8192x1x4
  broadcasts_S8192x3x1_S8192x3x4 : S8192x3x1.Broadcasts S8192x3x4
  broadcasts_S8192x1x4_S8192x3x4 : S8192x1x4.Broadcasts S8192x3x4
  shapeCasts_S8192x5_S8192x5x1 : S8192x5.ShapeCasts S8192x5x1
  shapeCasts_S4_S1x1x4 : S4.ShapeCasts S1x1x4
  broadcasts_S8192x5x1_S8192x5x4 : S8192x5x1.Broadcasts S8192x5x4
  broadcasts_S1x1x4_S8192x5x4 : S1x1x4.Broadcasts S8192x5x4
  shapeCasts_S8192x7_S8192x7x1 : S8192x7.ShapeCasts S8192x7x1
  broadcasts_S8192x7x1_S8192x7x4 : S8192x7x1.Broadcasts S8192x7x4
  broadcasts_S1x1x4_S8192x7x4 : S1x1x4.Broadcasts S8192x7x4
  concatenates_S8192x1x4_S8192x3x4_S8192x5x4_S8192x7x4_S8192x16x4_d1 : Shape.Concatenates [S8192x1x4, S8192x3x4, S8192x5x4, S8192x7x4] S8192x16x4 1
  shapeCasts_S8192x16x4_S8192x64 : S8192x16x4.ShapeCasts S8192x64
  inb_S1x8192x64_S1x8192x64_0_0_0 : ∀ a, (![0, 0, 0] : Fin 3 → Nat) a + S1x8192x64.size a ≤ S1x8192x64.size a
  h_S1x8192x64 : 0 < S1x8192x64.numel
  shapeCasts_S1x8192x64_S8192x64 : S1x8192x64.ShapeCasts S8192x64
  shapeCasts_S8192x64_S1x8192x64 : S8192x64.ShapeCasts S1x8192x64
  shapeCasts_S32x32768x64_S32x32768x16x4 : S32x32768x64.ShapeCasts S32x32768x16x4
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x8192x3.size a ≤ S32x32768x3.size a
  hwx0_0 : ∀ i : grid0.Coords, EltTy.bits .f32 = 32 ∨ (Rect.block (s := S32x32768x3) S1x8192x3.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2x4.size a ≤ S2x4.size a
  hwx0_1 : ∀ i : grid0.Coords, EltTy.bits .f32 = 32 ∨ (Rect.block (s := S2x4) S2x4.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4.size a ≤ S4.size a
  hwx0_2 : ∀ i : grid0.Coords, EltTy.bits .f32 = 32 ∨ (Rect.block (s := S4) S4.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2x4.size a ≤ S2x4.size a
  hwx0_3 : ∀ i : grid0.Coords, EltTy.bits .f32 = 32 ∨ (Rect.block (s := S2x4) S2x4.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x4.size a ≤ S1x4.size a
  hwx0_4 : ∀ i : grid0.Coords, EltTy.bits .f32 = 32 ∨ (Rect.block (s := S1x4) S1x4.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x4.size a ≤ S1x4.size a
  hwx0_5 : ∀ i : grid0.Coords, EltTy.bits .f32 = 32 ∨ (Rect.block (s := S1x4) S1x4.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x8192x64.size a ≤ S32x32768x64.size a
  hwx0_6 : ∀ i : grid0.Coords, EltTy.bits .f32 = 32 ∨ (Rect.block (s := S32x32768x64) S1x8192x64.size (cc0_transform_6 i) (hinb0_6 i)).WholeWords (EltTy.packing .f32)

variable [Facts₀]

abbrev win0_0 : Pipeline.Window sig grid0 :=
  Pipeline.Window.ofSpec (Memref.whole main_arg0) S1x8192x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2x4.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S4.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S2x4.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1x4.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S1x4.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v0) S1x8192x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S32x32768x3 : Shape := ⟨3, ![32, 32768, 3]⟩
abbrev S2x4 : Shape := ⟨2, ![2, 4]⟩
abbrev S4 : Shape := ⟨1, ![4]⟩
abbrev S1x4 : Shape := ⟨2, ![1, 4]⟩
abbrev S_ : Shape := ⟨0, ![]⟩
abbrev S32x32768 : Shape := ⟨2, ![32, 32768]⟩
abbrev S32x32768x1 : Shape := ⟨3, ![32, 32768, 1]⟩
abbrev S32x32768x5 : Shape := ⟨3, ![32, 32768, 5]⟩
abbrev S32x32768x7 : Shape := ⟨3, ![32, 32768, 7]⟩
abbrev S32x32768x1x1 : Shape := ⟨4, ![32, 32768, 1, 1]⟩
abbrev S32x32768x1x2 : Shape := ⟨4, ![32, 32768, 1, 2]⟩
abbrev S32x32768x3x1 : Shape := ⟨4, ![32, 32768, 3, 1]⟩
abbrev S32x32768x3x2 : Shape := ⟨4, ![32, 32768, 3, 2]⟩
abbrev S32x32768x5x1 : Shape := ⟨4, ![32, 32768, 5, 1]⟩
abbrev S32x32768x7x1 : Shape := ⟨4, ![32, 32768, 7, 1]⟩
abbrev S32x32768x1x4 : Shape := ⟨4, ![32, 32768, 1, 4]⟩
abbrev S1x1x1x4 : Shape := ⟨4, ![1, 1, 1, 4]⟩
abbrev S32x32768x3x4 : Shape := ⟨4, ![32, 32768, 3, 4]⟩
abbrev S32x32768x5x4 : Shape := ⟨4, ![32, 32768, 5, 4]⟩
abbrev S32x32768x7x4 : Shape := ⟨4, ![32, 32768, 7, 4]⟩
abbrev S32x32768x16x4 : Shape := ⟨4, ![32, 32768, 16, 4]⟩

abbrev nBuf : Space → Nat
  | .hbm => 161
  | .vmem => 0
  | .smem => 0
  | _ => 0

abbrev hbmTy0_0 (i : Nat) : BufTy := match i % 128 with
  | 0 => ⟨S32x32768x3, .f32⟩
  | 1 => ⟨S2x4, .f32⟩
  | 2 => ⟨S4, .f32⟩
  | 3 => ⟨S2x4, .f32⟩
  | 4 => ⟨S1x4, .f32⟩
  | 5 => ⟨S1x4, .f32⟩
  | 6 => ⟨S32x32768x3, .f32⟩
  | 7 => ⟨S_, .f32⟩
  | 8 => ⟨S32x32768, .f32⟩
  | 9 => ⟨S32x32768x1, .f32⟩
  | 10 => ⟨S32x32768, .f32⟩
  | 11 => ⟨S32x32768x1, .f32⟩
  | 12 => ⟨S32x32768, .f32⟩
  | 13 => ⟨S32x32768x1, .f32⟩
  | 14 => ⟨S32x32768, .f32⟩
  | 15 => ⟨S32x32768, .f32⟩
  | 16 => ⟨S32x32768, .f32⟩
  | 17 => ⟨S32x32768, .f32⟩
  | 18 => ⟨S_, .f32⟩
  | 19 => ⟨S32x32768x1, .f32⟩
  | 20 => ⟨S_, .f32⟩
  | 21 => ⟨S32x32768x1, .f32⟩
  | 22 => ⟨S32x32768x1, .f32⟩
  | 23 => ⟨S32x32768x1, .f32⟩
  | 24 => ⟨S32x32768x1, .f32⟩
  | 25 => ⟨S32x32768x1, .f32⟩
  | 26 => ⟨S32x32768x3, .f32⟩
  | 27 => ⟨S_, .f32⟩
  | 28 => ⟨S32x32768x3, .f32⟩
  | 29 => ⟨S32x32768x3, .f32⟩
  | 30 => ⟨S_, .f32⟩
  | 31 => ⟨S32x32768, .f32⟩
  | 32 => ⟨S32x32768, .f32⟩
  | 33 => ⟨S32x32768, .f32⟩
  | 34 => ⟨S_, .f32⟩
  | 35 => ⟨S32x32768, .f32⟩
  | 36 => ⟨S32x32768, .f32⟩
  | 37 => ⟨S32x32768, .f32⟩
  | 38 => ⟨S_, .f32⟩
  | 39 => ⟨S32x32768, .f32⟩
  | 40 => ⟨S32x32768, .f32⟩
  | 41 => ⟨S32x32768, .f32⟩
  | 42 => ⟨S32x32768, .f32⟩
  | 43 => ⟨S_, .f32⟩
  | 44 => ⟨S32x32768, .f32⟩
  | 45 => ⟨S32x32768, .f32⟩
  | 46 => ⟨S_, .f32⟩
  | 47 => ⟨S32x32768, .f32⟩
  | 48 => ⟨S32x32768, .f32⟩
  | 49 => ⟨S32x32768, .f32⟩
  | 50 => ⟨S32x32768, .f32⟩
  | 51 => ⟨S_, .f32⟩
  | 52 => ⟨S32x32768, .f32⟩
  | 53 => ⟨S32x32768, .f32⟩
  | 54 => ⟨S32x32768x1, .f32⟩
  | 55 => ⟨S32x32768x1, .f32⟩
  | 56 => ⟨S32x32768x1, .f32⟩
  | 57 => ⟨S32x32768x1, .f32⟩
  | 58 => ⟨S32x32768x1, .f32⟩
  | 59 => ⟨S32x32768x5, .f32⟩
  | 60 => ⟨S_, .f32⟩
  | 61 => ⟨S32x32768, .f32⟩
  | 62 => ⟨S32x32768, .f32⟩
  | 63 => ⟨S_, .f32⟩
  | 64 => ⟨S32x32768, .f32⟩
  | 65 => ⟨S32x32768, .f32⟩
  | 66 => ⟨S32x32768, .f32⟩
  | 67 => ⟨S32x32768, .f32⟩
  | 68 => ⟨S_, .f32⟩
  | 69 => ⟨S32x32768, .f32⟩
  | 70 => ⟨S32x32768, .f32⟩
  | 71 => ⟨S32x32768, .f32⟩
  | 72 => ⟨S32x32768, .f32⟩
  | 73 => ⟨S_, .f32⟩
  | 74 => ⟨S32x32768, .f32⟩
  | 75 => ⟨S32x32768, .f32⟩
  | 76 => ⟨S_, .f32⟩
  | 77 => ⟨S32x32768, .f32⟩
  | 78 => ⟨S32x32768, .f32⟩
  | 79 => ⟨S32x32768, .f32⟩
  | 80 => ⟨S32x32768, .f32⟩
  | 81 => ⟨S32x32768, .f32⟩
  | 82 => ⟨S_, .f32⟩
  | 83 => ⟨S32x32768, .f32⟩
  | 84 => ⟨S32x32768, .f32⟩
  | 85 => ⟨S_, .f32⟩
  | 86 => ⟨S32x32768, .f32⟩
  | 87 => ⟨S32x32768, .f32⟩
  | 88 => ⟨S_, .f32⟩
  | 89 => ⟨S32x32768, .f32⟩
  | 90 => ⟨S32x32768, .f32⟩
  | 91 => ⟨S32x32768, .f32⟩
  | 92 => ⟨S_, .f32⟩
  | 93 => ⟨S32x32768, .f32⟩
  | 94 => ⟨S32x32768, .f32⟩
  | 95 => ⟨S32x32768, .f32⟩
  | 96 => ⟨S32x32768, .f32⟩
  | 97 => ⟨S_, .f32⟩
  | 98 => ⟨S32x32768, .f32⟩
  | 99 => ⟨S32x32768, .f32⟩
  | 100 => ⟨S_, .f32⟩
  | 101 => ⟨S32x32768, .f32⟩
  | 102 => ⟨S32x32768, .f32⟩
  | 103 => ⟨S32x32768, .f32⟩
  | 104 => ⟨S32x32768, .f32⟩
  | 105 => ⟨S32x32768, .f32⟩
  | 106 => ⟨S_, .f32⟩
  | 107 => ⟨S32x32768, .f32⟩
  | 108 => ⟨S32x32768, .f32⟩
  | 109 => ⟨S32x32768, .f32⟩
  | 110 => ⟨S32x32768, .f32⟩
  | 111 => ⟨S_, .f32⟩
  | 112 => ⟨S32x32768, .f32⟩
  | 113 => ⟨S32x32768, .f32⟩
  | 114 => ⟨S_, .f32⟩
  | 115 => ⟨S32x32768, .f32⟩
  | 116 => ⟨S32x32768, .f32⟩
  | 117 => ⟨S32x32768, .f32⟩
  | 118 => ⟨S32x32768, .f32⟩
  | 119 => ⟨S32x32768x1, .f32⟩
  | 120 => ⟨S32x32768x1, .f32⟩
  | 121 => ⟨S32x32768x1, .f32⟩
  | 122 => ⟨S32x32768x1, .f32⟩
  | 123 => ⟨S32x32768x1, .f32⟩
  | 124 => ⟨S32x32768x1, .f32⟩
  | 125 => ⟨S32x32768x1, .f32⟩
  | 126 => ⟨S32x32768x7, .f32⟩
  | 127 => ⟨S_, .f32⟩
  | _ => ⟨S32x32768x3, .f32⟩

abbrev hbmTy0_1 (i : Nat) : BufTy := match i % 128 with
  | 0 => ⟨S32x32768, .f32⟩
  | 1 => ⟨S32x32768x1, .f32⟩
  | 2 => ⟨S32x32768x1, .f32⟩
  | 3 => ⟨S32x32768x1, .f32⟩
  | 4 => ⟨S32x32768x1, .f32⟩
  | 5 => ⟨S32x32768x1x1, .f32⟩
  | 6 => ⟨S32x32768x1x1, .f32⟩
  | 7 => ⟨S32x32768x1x2, .f32⟩
  | 8 => ⟨S32x32768x1, .f32⟩
  | 9 => ⟨S32x32768x3, .f32⟩
  | 10 => ⟨S32x32768x3, .f32⟩
  | 11 => ⟨S32x32768x1, .f32⟩
  | 12 => ⟨S32x32768x3, .f32⟩
  | 13 => ⟨S32x32768x3, .f32⟩
  | 14 => ⟨S32x32768x3x1, .f32⟩
  | 15 => ⟨S32x32768x3x1, .f32⟩
  | 16 => ⟨S32x32768x3x2, .f32⟩
  | 17 => ⟨S32x32768x1, .f32⟩
  | 18 => ⟨S32x32768x5, .f32⟩
  | 19 => ⟨S32x32768x5, .f32⟩
  | 20 => ⟨S32x32768x5x1, .f32⟩
  | 21 => ⟨S32x32768x1, .f32⟩
  | 22 => ⟨S32x32768x7, .f32⟩
  | 23 => ⟨S32x32768x7, .f32⟩
  | 24 => ⟨S32x32768x7x1, .f32⟩
  | 25 => ⟨S32x32768x1x4, .f32⟩
  | 26 => ⟨S1x1x1x4, .f32⟩
  | 27 => ⟨S32x32768x1x4, .f32⟩
  | 28 => ⟨S32x32768x1x4, .f32⟩
  | 29 => ⟨S32x32768x3x4, .f32⟩
  | 30 => ⟨S32x32768x5x4, .f32⟩
  | 31 => ⟨S32x32768x7x4, .f32⟩
  | 32 => ⟨S32x32768x16x4, .f32⟩
  | _ => ⟨S32x32768x3, .f32⟩

abbrev hbmTy (i : Nat) : BufTy := match i / 128 with
  | 0 => hbmTy0_0 i
  | 1 => hbmTy0_1 i
  | _ => ⟨S32x32768x3, .f32⟩

abbrev bufTy : (tb : Table) → Fin (tcTables nBuf tb) → BufTy
  | .hbm, ⟨i, _⟩ => hbmTy i
  | _, _ => ⟨S32x32768x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_4 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_5 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_6 : Ref sig .tc := ⟨.hbm, 43, rfl⟩
abbrev main_v30 : Ref sig .tc := ⟨.hbm, 44, rfl⟩
abbrev main_v31 : Ref sig .tc := ⟨.hbm, 45, rfl⟩
abbrev main_cst_7 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_8 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_cst_9 : Ref sig .tc := ⟨.hbm, 60, rfl⟩
abbrev main_v44 : Ref sig .tc := ⟨.hbm, 61, rfl⟩
abbrev main_v45 : Ref sig .tc := ⟨.hbm, 62, rfl⟩
abbrev main_cst_10 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_cst_11 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_cst_12 : Ref sig .tc := ⟨.hbm, 73, rfl⟩
abbrev main_v54 : Ref sig .tc := ⟨.hbm, 74, rfl⟩
abbrev main_v55 : Ref sig .tc := ⟨.hbm, 75, rfl⟩
abbrev main_cst_13 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_cst_14 : Ref sig .tc := ⟨.hbm, 82, rfl⟩
abbrev main_v61 : Ref sig .tc := ⟨.hbm, 83, rfl⟩
abbrev main_v62 : Ref sig .tc := ⟨.hbm, 84, rfl⟩
abbrev main_cst_15 : Ref sig .tc := ⟨.hbm, 85, rfl⟩
abbrev main_v63 : Ref sig .tc := ⟨.hbm, 86, rfl⟩
abbrev main_v64 : Ref sig .tc := ⟨.hbm, 87, rfl⟩
abbrev main_cst_16 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_cst_17 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_cst_18 : Ref sig .tc := ⟨.hbm, 97, rfl⟩
abbrev main_v72 : Ref sig .tc := ⟨.hbm, 98, rfl⟩
abbrev main_v73 : Ref sig .tc := ⟨.hbm, 99, rfl⟩
abbrev main_cst_19 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_cst_20 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_cst_21 : Ref sig .tc := ⟨.hbm, 111, rfl⟩
abbrev main_v83 : Ref sig .tc := ⟨.hbm, 112, rfl⟩
abbrev main_v84 : Ref sig .tc := ⟨.hbm, 113, rfl⟩
abbrev main_cst_22 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_cst_23 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev main_v111 : Ref sig .tc := ⟨.hbm, 142, rfl⟩
abbrev main_v112 : Ref sig .tc := ⟨.hbm, 143, rfl⟩
abbrev main_v113 : Ref sig .tc := ⟨.hbm, 144, rfl⟩
abbrev main_v114 : Ref sig .tc := ⟨.hbm, 145, rfl⟩
abbrev main_v115 : Ref sig .tc := ⟨.hbm, 146, rfl⟩
abbrev main_v116 : Ref sig .tc := ⟨.hbm, 147, rfl⟩
abbrev main_v117 : Ref sig .tc := ⟨.hbm, 148, rfl⟩
abbrev main_v118 : Ref sig .tc := ⟨.hbm, 149, rfl⟩
abbrev main_v119 : Ref sig .tc := ⟨.hbm, 150, rfl⟩
abbrev main_v120 : Ref sig .tc := ⟨.hbm, 151, rfl⟩
abbrev main_v121 : Ref sig .tc := ⟨.hbm, 152, rfl⟩
abbrev main_v122 : Ref sig .tc := ⟨.hbm, 153, rfl⟩
abbrev main_v123 : Ref sig .tc := ⟨.hbm, 154, rfl⟩
abbrev main_v124 : Ref sig .tc := ⟨.hbm, 155, rfl⟩
abbrev main_v125 : Ref sig .tc := ⟨.hbm, 156, rfl⟩
abbrev main_v126 : Ref sig .tc := ⟨.hbm, 157, rfl⟩
abbrev main_v127 : Ref sig .tc := ⟨.hbm, 158, rfl⟩
abbrev main_v128 : Ref sig .tc := ⟨.hbm, 159, rfl⟩
abbrev main_v129 : Ref sig .tc := ⟨.hbm, 160, rfl⟩

abbrev nD : Nat := 1
abbrev τ : Topo := Topo.v7x

variable {F : FTy → Type} [FloatOps F]

class Facts₀ : Prop where
  reducesTo_S32x32768x3_S32x32768_d2 : S32x32768x3.ReducesTo [2] S32x32768
  h_S_ : 0 < S_.numel
  slices_S32x32768x3_S32x32768x1_0_0_0 : S32x32768x3.Slices ![0, 0, 0] S32x32768x1
  shapeCasts_S32x32768x1_S32x32768 : S32x32768x1.ShapeCasts S32x32768
  slices_S32x32768x3_S32x32768x1_0_0_1 : S32x32768x3.Slices ![0, 0, 1] S32x32768x1
  slices_S32x32768x3_S32x32768x1_0_0_2 : S32x32768x3.Slices ![0, 0, 2] S32x32768x1
  bcast_S_S32x32768x1 : S_.BroadcastsInDim S32x32768x1 (![] : Fin 0 → Fin S32x32768x1.rank)
  bcast_S32x32768_S32x32768x1_0_1 : S32x32768.BroadcastsInDim S32x32768x1 (![0, 1] : Fin 2 → Fin S32x32768x1.rank)
  concatenates_S32x32768x1_S32x32768x1_S32x32768x1_S32x32768x3_d2 : Shape.Concatenates [S32x32768x1, S32x32768x1, S32x32768x1] S32x32768x3 2
  bcast_S_S32x32768x3 : S_.BroadcastsInDim S32x32768x3 (![] : Fin 0 → Fin S32x32768x3.rank)
  bcast_S_S32x32768 : S_.BroadcastsInDim S32x32768 (![] : Fin 0 → Fin S32x32768.rank)
  concatenates_S32x32768x1_S32x32768x1_S32x32768x1_S32x32768x1_S32x32768x1_S32x32768x5_d2 : Shape.Concatenates [S32x32768x1, S32x32768x1, S32x32768x1, S32x32768x1, S32x32768x1] S32x32768x5 2
  concatenates_S32x32768x1_S32x32768x1_S32x32768x1_S32x32768x1_S32x32768x1_S32x32768x1_S32x32768x1_S32x32768x7_d2 : Shape.Concatenates [S32x32768x1, S32x32768x1, S32x32768x1, S32x32768x1, S32x32768x1, S32x32768x1, S32x32768x1] S32x32768x7 2
  bcast_S32x32768x1_S32x32768x1x1_0_1_2 : S32x32768x1.BroadcastsInDim S32x32768x1x1 (![0, 1, 2] : Fin 3 → Fin S32x32768x1x1.rank)
  concatenates_S32x32768x1x1_S32x32768x1x1_S32x32768x1x2_d3 : Shape.Concatenates [S32x32768x1x1, S32x32768x1x1] S32x32768x1x2 3
  bcast_S32x32768x1_S32x32768x3_0_1_2 : S32x32768x1.BroadcastsInDim S32x32768x3 (![0, 1, 2] : Fin 3 → Fin S32x32768x3.rank)
  bcast_S32x32768x3_S32x32768x3x1_0_1_2 : S32x32768x3.BroadcastsInDim S32x32768x3x1 (![0, 1, 2] : Fin 3 → Fin S32x32768x3x1.rank)
  concatenates_S32x32768x3x1_S32x32768x3x1_S32x32768x3x2_d3 : Shape.Concatenates [S32x32768x3x1, S32x32768x3x1] S32x32768x3x2 3
  bcast_S32x32768x1_S32x32768x5_0_1_2 : S32x32768x1.BroadcastsInDim S32x32768x5 (![0, 1, 2] : Fin 3 → Fin S32x32768x5.rank)
  bcast_S32x32768x5_S32x32768x5x1_0_1_2 : S32x32768x5.BroadcastsInDim S32x32768x5x1 (![0, 1, 2] : Fin 3 → Fin S32x32768x5x1.rank)
  bcast_S32x32768x1_S32x32768x7_0_1_2 : S32x32768x1.BroadcastsInDim S32x32768x7 (![0, 1, 2] : Fin 3 → Fin S32x32768x7.rank)
  bcast_S32x32768x7_S32x32768x7x1_0_1_2 : S32x32768x7.BroadcastsInDim S32x32768x7x1 (![0, 1, 2] : Fin 3 → Fin S32x32768x7x1.rank)
  bcast_S4_S1x1x1x4_3 : S4.BroadcastsInDim S1x1x1x4 (![3] : Fin 1 → Fin S1x1x1x4.rank)
  bcast_S1x1x1x4_S32x32768x1x4_0_1_2_3 : S1x1x1x4.BroadcastsInDim S32x32768x1x4 (![0, 1, 2, 3] : Fin 4 → Fin S32x32768x1x4.rank)
  concatenates_S32x32768x1x4_S32x32768x3x4_S32x32768x5x4_S32x32768x7x4_S32x32768x16x4_d2 : Shape.Concatenates [S32x32768x1x4, S32x32768x3x4, S32x32768x5x4, S32x32768x7x4] S32x32768x16x4 2
  dot_S32x32768x1x2_S2x4_S32x32768x1x4_3_0_012_1_n_n_wf : DotDims.WF S32x32768x1x2 S2x4 S32x32768x1x4 [3] [0] [0, 1, 2] [1] [] []
  dot_S32x32768x3x2_S2x4_S32x32768x3x4_3_0_012_1_n_n_wf : DotDims.WF S32x32768x3x2 S2x4 S32x32768x3x4 [3] [0] [0, 1, 2] [1] [] []
  dot_S32x32768x5x1_S1x4_S32x32768x5x4_3_0_012_1_n_n_wf : DotDims.WF S32x32768x5x1 S1x4 S32x32768x5x4 [3] [0] [0, 1, 2] [1] [] []
  dot_S32x32768x7x1_S1x4_S32x32768x7x4_3_0_012_1_n_n_wf : DotDims.WF S32x32768x7x1 S1x4 S32x32768x7x4 [3] [0] [0, 1, 2] [1] [] []

variable [Facts₀]

def dot_S32x32768x1x2_S2x4_S32x32768x1x4_3_0_012_1_n_n : DotDims S32x32768x1x2 S2x4 S32x32768x1x4 where
  lhsContracting := [3]
  rhsContracting := [0]
  lhsNonContracting := [0, 1, 2]
  rhsNonContracting := [1]
  lhsBatch := []
  rhsBatch := []
  wf := dot_S32x32768x1x2_S2x4_S32x32768x1x4_3_0_012_1_n_n_wf
def dot_S32x32768x3x2_S2x4_S32x32768x3x4_3_0_012_1_n_n : DotDims S32x32768x3x2 S2x4 S32x32768x3x4 where
  lhsContracting := [3]
  rhsContracting := [0]
  lhsNonContracting := [0, 1, 2]
  rhsNonContracting := [1]
  lhsBatch := []
  rhsBatch := []
  wf := dot_S32x32768x3x2_S2x4_S32x32768x3x4_3_0_012_1_n_n_wf
def dot_S32x32768x5x1_S1x4_S32x32768x5x4_3_0_012_1_n_n : DotDims S32x32768x5x1 S1x4 S32x32768x5x4 where
  lhsContracting := [3]
  rhsContracting := [0]
  lhsNonContracting := [0, 1, 2]
  rhsNonContracting := [1]
  lhsBatch := []
  rhsBatch := []
  wf := dot_S32x32768x5x1_S1x4_S32x32768x5x4_3_0_012_1_n_n_wf
def dot_S32x32768x7x1_S1x4_S32x32768x7x4_3_0_012_1_n_n : DotDims S32x32768x7x1 S1x4 S32x32768x7x4 where
  lhsContracting := [3]
  rhsContracting := [0]
  lhsNonContracting := [0, 1, 2]
  rhsNonContracting := [1]
  lhsBatch := []
  rhsBatch := []
  wf := dot_S32x32768x7x1_S1x4_S32x32768x7x4_3_0_012_1_n_n_wf

class Facts : Prop extends Facts₀ where

variable [Facts]
-- ==== Proof.Spec.lean ====
/-
  The mathematics of this certificate, stated once, over the extended reals, with no program in sight.

  A point p = (px, py, pz) of 3-space gives the real spherical-harmonic polynomials of degrees 1, 2 and 3
  (three, five and seven of them: `deg1`, `deg2`, `deg3`), each a fixed constant times a polynomial in the
  coordinates, and the squared norm |p|² (`normSq`).  A result row has sixteen entries m = 0 … 15, each carrying four
  channels u:
    m = 0        : c0 · (W0[0,u] + |p|² · W0[1,u]) + b0[u]
    m = 1 … 3    : deg1 (m-1) · (W1[0,u] + |p|² · W1[1,u])
    m = 4 … 8    : deg2 (m-4) · W2[0,u]
    m = 9 … 15   : deg3 (m-9) · W3[0,u]
  (`row`).  This is the FACTORED form.  The EXPANDED form (`rowX`) contracts, channel by channel, the two monomials
  1 · Y and |p|² · Y (one monomial 1 · Y in degrees 2 and 3) against the rows of the weight matrix:
    m = 0        : (1 · (c0 · 1)) · W0[0,u] + (|p|² · (c0 · 1)) · W0[1,u] + b0[u],   and so on.
  The two forms agree on real arguments by distributivity (`Proof/Algebra.lean`); on the extended reals they need not,
  which is where the finiteness of the inputs is used.

  `G` is the whole result, entry (b, n, m, u) of a [32, 32768, 16, 4] array, from the array of points and the weights;
  `Gflat` is the same numbers laid out [32, 32768, 64], entry (b, n, 4 m + u).
-/
import Idealize.ShloMosaic.PureOps.Ideal
import Idealize.ShloMosaic.Lib.ValueIdx

noncomputable section

namespace Cert.Harmonics

open Idealize.ShloMosaic Idealize.ShloMosaic.ValueIdx

/-! ## The constants: the binary32 numbers both programs carry, never evaluated -/

/-- 0.282094806 ≈ 1/(2√π): the degree-0 harmonic. -/
abbrev c0 : EReal := Ideal.ofBits .f32 0x3E906EBB#32
/-- 0.488602519 ≈ √(3/(4π)): degree 1. -/
abbrev c1 : EReal := Ideal.ofBits .f32 0x3EFA2A1C#32
/-- 1.09254849: the xy, yz, xz harmonics of degree 2. -/
abbrev c2xy : EReal := Ideal.ofBits .f32 0x3F8BD8A1#32
/-- 0.31539157: the 2z² − x² − y² harmonic. -/
abbrev c20 : EReal := Ideal.ofBits .f32 0x3EA17B01#32
/-- 0.546274245: the x² − y² harmonic. -/
abbrev c22 : EReal := Ideal.ofBits .f32 0x3F0BD8A1#32
/-- 0.590043604: the two outer harmonics of degree 3. -/
abbrev c33 : EReal := Ideal.ofBits .f32 0x3F170D19#32
/-- 2.89061141: the xyz harmonic. -/
abbrev c32 : EReal := Ideal.ofBits .f32 0x4038FFC7#32
/-- 0.457045794: the y(4z² − x² − y²) and x(4z² − x² − y²) harmonics. -/
abbrev c31 : EReal := Ideal.ofBits .f32 0x3EEA01E8#32
/-- 0.373176336: the z(2z² − 3x² − 3y²) harmonic. -/
abbrev c30 : EReal := Ideal.ofBits .f32 0x3EBF10F8#32
/-- 1.44530571: the z(x² − y²) harmonic. -/
abbrev c3p : EReal := Ideal.ofBits .f32 0x3FB8FFC7#32
/-- The small integers 2, 3, 4 as binary32 numbers. -/
abbrev two : EReal := Ideal.ofBits .f32 0x40000000#32
abbrev three : EReal := Ideal.ofBits .f32 0x40400000#32
abbrev four : EReal := Ideal.ofBits .f32 0x40800000#32

/-! ## The harmonics of one point -/

/-- |p|² = (px² + py²) + pz². -/
def normSq (px py pz : EReal) : EReal := px * px + py * py + pz * pz

/-- Degree 1: c1 · (y, z, x). -/
def deg1 (k : Fin 3) (px py pz : EReal) : EReal :=
  match k with
  | ⟨0, _⟩ => c1 * py
  | ⟨1, _⟩ => c1 * pz
  | ⟨2, _⟩ => c1 * px

/-- Degree 2: xy, yz, 2z² − x² − y², xz, x² − y², each with its constant. -/
def deg2 (k : Fin 5) (px py pz : EReal) : EReal :=
  match k with
  | ⟨0, _⟩ => c2xy * px * py
  | ⟨1, _⟩ => c2xy * py * pz
  | ⟨2, _⟩ => c20 * (two * (pz * pz) - px * px - py * py)
  | ⟨3, _⟩ => c2xy * px * pz
  | ⟨4, _⟩ => c22 * (px * px - py * py)

/-- Degree 3: y(3x² − y²), xyz, y(4z² − x² − y²), z(2z² − 3x² − 3y²), x(4z² − x² − y²), z(x² − y²), x(x² − 3y²). -/
def deg3 (k : Fin 7) (px py pz : EReal) : EReal :=
  match k with
  | ⟨0, _⟩ => c33 * py * (three * (px * px) - py * py)
  | ⟨1, _⟩ => c32 * px * py * pz
  | ⟨2, _⟩ => c31 * py * (four * (pz * pz) - px * px - py * py)
  | ⟨3, _⟩ => c30 * pz * (two * (pz * pz) - three * (px * px) - three * (py * py))
  | ⟨4, _⟩ => c31 * px * (four * (pz * pz) - px * px - py * py)
  | ⟨5, _⟩ => c3p * pz * (px * px - py * py)
  | ⟨6, _⟩ => c33 * px * (px * px - three * (py * py))

/-! ## One result row -/

/-- The weights as the programs hold them: W0, W1 are [2, 4], b0 is [4], W2, W3 are [1, 4]. -/
abbrev W24 : Type := (⟨2, ![2, 4]⟩ : Shape).Idx → EReal
abbrev W14 : Type := (⟨2, ![1, 4]⟩ : Shape).Idx → EReal
abbrev B4 : Type := (⟨1, ![4]⟩ : Shape).Idx → EReal

/-- Entry (m, u) of the row of the point (px, py, pz), FACTORED: the monomials' weights summed first. -/
def row (m : Fin 16) (u : Fin 4) (px py pz : EReal) (W0 : W24) (b0 : B4) (W1 : W24) (W2 W3 : W14) : EReal :=
  if h0 : m.val < 1 then
    c0 * (W0 (ix2 0 u) + normSq px py pz * W0 (ix2 1 u)) + b0 (ix1 u)
  else if h1 : m.val < 4 then
    deg1 ⟨m.val - 1, by omega⟩ px py pz * (W1 (ix2 0 u) + normSq px py pz * W1 (ix2 1 u))
  else if h2 : m.val < 9 then
    deg2 ⟨m.val - 4, by omega⟩ px py pz * W2 (ix2 0 u)
  else
    deg3 ⟨m.val - 9, by have := m.isLt; omega⟩ px py pz * W3 (ix2 0 u)

/-- Entry (m, u) of the row, EXPANDED: each monomial 1 · Y, |p|² · Y times its own weight, then summed; the squared
    norm as a sum started at zero. -/
def rowX (m : Fin 16) (u : Fin 4) (px py pz : EReal) (W0 : W24) (b0 : B4) (W1 : W24) (W2 W3 : W14) : EReal :=
  if h0 : m.val < 1 then
    (1 * (c0 * 1)) * W0 (ix2 0 u) + ((0 + (px * px + py * py + pz * pz)) * (c0 * 1)) * W0 (ix2 1 u) + b0 (ix1 u)
  else if h1 : m.val < 4 then
    (1 * deg1 ⟨m.val - 1, by omega⟩ px py pz) * W1 (ix2 0 u)
      + ((0 + (px * px + py * py + pz * pz)) * deg1 ⟨m.val - 1, by omega⟩ px py pz) * W1 (ix2 1 u)
  else if h2 : m.val < 9 then
    (1 * deg2 ⟨m.val - 4, by omega⟩ px py pz) * W2 (ix2 0 u)
  else
    (1 * deg3 ⟨m.val - 9, by have := m.isLt; omega⟩ px py pz) * W3 (ix2 0 u)

/-! ## The whole result -/

/-- The array of points, [32, 32768, 3]. -/
abbrev Pts : Type := (⟨3, ![32, 32768, 3]⟩ : Shape).Idx → EReal

/-- Entry (b, n, m, u) of the result: entry (m, u) of the row of point (b, n). -/
def G (X : Pts) (W0 : W24) (b0 : B4) (W1 : W24) (W2 W3 : W14) : (⟨4, ![32, 32768, 16, 4]⟩ : Shape).Idx → EReal := fun i =>
  row ⟨(i 2).val, (i 2).isLt⟩ ⟨(i 3).val, (i 3).isLt⟩
    (X (ix3 ⟨(i 0).val, (i 0).isLt⟩ ⟨(i 1).val, (i 1).isLt⟩ (0 : Fin 3)))
    (X (ix3 ⟨(i 0).val, (i 0).isLt⟩ ⟨(i 1).val, (i 1).isLt⟩ (1 : Fin 3)))
    (X (ix3 ⟨(i 0).val, (i 0).isLt⟩ ⟨(i 1).val, (i 1).isLt⟩ (2 : Fin 3))) W0 b0 W1 W2 W3

/-- The same numbers with the row's sixteen entries of four channels laid end to end: entry (b, n, 4 m + u). -/
def Gflat (X : Pts) (W0 : W24) (b0 : B4) (W1 : W24) (W2 W3 : W14) : (⟨3, ![32, 32768, 64]⟩ : Shape).Idx → EReal := fun i =>
  row ⟨(i 2).val / 4, by have := (i 2).isLt; change (i 2).val < 64 at this; omega⟩ ⟨(i 2).val % 4, Nat.mod_lt _ (by decide)⟩
    (X (ix3 ⟨(i 0).val, (i 0).isLt⟩ ⟨(i 1).val, (i 1).isLt⟩ (0 : Fin 3)))
    (X (ix3 ⟨(i 0).val, (i 0).isLt⟩ ⟨(i 1).val, (i 1).isLt⟩ (1 : Fin 3)))
    (X (ix3 ⟨(i 0).val, (i 0).isLt⟩ ⟨(i 1).val, (i 1).isLt⟩ (2 : Fin 3))) W0 b0 W1 W2 W3

end Cert.Harmonics

end
-- ==== Proof.Algebra.lean ====
/-
  The one law that joins the two programs: on REAL arguments the expanded row is the factored row.

  For degrees 2 and 3 the two forms differ by a factor 1 only, and agree on all extended reals.  For degrees 0 and 1 the
  expanded form is  (1 · Y) · w₀ + (|p|² · Y) · w₁  and the factored one  Y · (w₀ + |p|² · w₁):  distributivity, which on the
  extended reals fails at infinities (∞ · (1 − 1) against ∞ − ∞), and holds once the point's coordinates, the two weights
  and the constant are real numbers.  A binary32 constant whose exponent field is not all ones is a real number.
-/
import proofs.«129319_j8839042695322_1_alg».proof.Proof.Spec
import Idealize.ShloMosaic.Lib.IdealHost
import Mathlib.Data.EReal.Basic
import Mathlib.Tactic.Ring

noncomputable section

namespace Cert.Harmonics

open Idealize.ShloMosaic Idealize.ShloMosaic.ValueIdx

/-- A binary32 word whose exponent field is not all ones denotes a real number: it is a zero, a subnormal or a normal
    number, each of which is a real by definition; only the all-ones exponent gives an infinity or junk. -/
private theorem real_of_word (w : BitVec 32) (h : (w.extractLsb' 23 8).toNat ≠ 255) :
    ∃ r : ℝ, Ideal.ofBits .f32 w = (r : EReal) := by
  change ∃ r : ℝ, Ideal.ieee 8 23 w = (r : EReal)
  unfold Ideal.ieee
  dsimp only
  have h' : ¬ (w.extractLsb' 23 8).toNat = 2 ^ 8 - 1 := by
    intro e; exact h (by rw [e]; norm_num)
  rw [if_neg h']
  split_ifs <;> exact ⟨_, rfl⟩

/-- The degree-0 constant is a real number. -/
private theorem c0_real : ∃ r : ℝ, c0 = (r : EReal) := real_of_word 0x3E906EBB#32 (by decide)

/-- The degree-1 constant is a real number. -/
private theorem c1_real : ∃ r : ℝ, c1 = (r : EReal) := real_of_word 0x3EFA2A1C#32 (by decide)

/-- A degree-1 harmonic of a real point is a real number: the real constant times a real coordinate. -/
private theorem deg1_real (k : Fin 3) (a b c : ℝ) :
    ∃ r : ℝ, deg1 k (a : EReal) (b : EReal) (c : EReal) = (r : EReal) := by
  obtain ⟨k1, hk1⟩ := c1_real
  match k with
  | ⟨0, _⟩ => exact ⟨k1 * b, by show c1 * (b : EReal) = _; rw [hk1, EReal.coe_mul]⟩
  | ⟨1, _⟩ => exact ⟨k1 * c, by show c1 * (c : EReal) = _; rw [hk1, EReal.coe_mul]⟩
  | ⟨2, _⟩ => exact ⟨k1 * a, by show c1 * (a : EReal) = _; rw [hk1, EReal.coe_mul]⟩

/-- Distributivity over the reals, in the shape of the two forms: Y · (w₀ + s · w₁) against 1 · Y · w₀ + (0 + s) · Y · w₁. -/
private theorem expand_real (y s w₀ w₁ : ℝ) :
    (1 * (y : EReal)) * (w₀ : EReal) + ((0 + (s : EReal)) * (y : EReal)) * (w₁ : EReal)
      = (y : EReal) * ((w₀ : EReal) + (s : EReal) * (w₁ : EReal)) := by
  rw [one_mul, zero_add, ← EReal.coe_mul, ← EReal.coe_mul, ← EReal.coe_mul, ← EReal.coe_mul, ← EReal.coe_add,
    ← EReal.coe_add, ← EReal.coe_mul]
  congr 1
  ring

/-- The squared norm of a real point is a real number. -/
private theorem sq_real (a b c : ℝ) :
    (a : EReal) * (a : EReal) + (b : EReal) * (b : EReal) + (c : EReal) * (c : EReal) = ((a * a + b * b + c * c : ℝ) : EReal) := by
  rw [EReal.coe_add, EReal.coe_add, EReal.coe_mul, EReal.coe_mul, EReal.coe_mul]

/-- On a real point, with real weights in the two-monomial pieces, the expanded row is the factored row. -/
theorem rowX_eq_row (m : Fin 16) (u : Fin 4) (px py pz : EReal) (W0 : W24) (b0 : B4) (W1 : W24) (W2 W3 : W14)
    (hx : ∃ r : ℝ, px = (r : EReal)) (hy : ∃ r : ℝ, py = (r : EReal)) (hz : ∃ r : ℝ, pz = (r : EReal))
    (hW0 : ∀ i, ∃ r : ℝ, W0 i = (r : EReal)) (hW1 : ∀ i, ∃ r : ℝ, W1 i = (r : EReal)) :
    rowX m u px py pz W0 b0 W1 W2 W3 = row m u px py pz W0 b0 W1 W2 W3 := by
  obtain ⟨a, rfl⟩ := hx
  obtain ⟨b, rfl⟩ := hy
  obtain ⟨c, rfl⟩ := hz
  unfold rowX row normSq
  by_cases h0 : m.val < 1
  · -- degree 0: the constant, the two weights and the squared norm are reals; the bias stays as it is
    simp only [dif_pos h0]
    obtain ⟨w₀, hw₀⟩ := hW0 (ix2 0 u)
    obtain ⟨w₁, hw₁⟩ := hW0 (ix2 1 u)
    obtain ⟨k0, hk0⟩ := c0_real
    rw [hw₀, hw₁, hk0, sq_real, mul_one, expand_real]
  · by_cases h1 : m.val < 4
    · -- degree 1: the harmonic is a real, and so are the two weights and the squared norm
      simp only [dif_neg h0, dif_pos h1]
      obtain ⟨w₀, hw₀⟩ := hW1 (ix2 0 u)
      obtain ⟨w₁, hw₁⟩ := hW1 (ix2 1 u)
      obtain ⟨y, hy⟩ := deg1_real ⟨m.val - 1, by omega⟩ a b c
      rw [hw₀, hw₁, hy, sq_real, expand_real]
    · by_cases h2 : m.val < 9
      · -- degree 2: the forms differ by a factor 1
        simp only [dif_neg h0, dif_neg h1, dif_pos h2, one_mul]
      · -- degree 3: the same
        simp only [dif_neg h0, dif_neg h1, dif_neg h2, one_mul]

end Cert.Harmonics

end
-- ==== Proof.Finite.lean ====
/-
  What the precondition says: every entry of the array of points and of the two [2, 4] weight matrices is a real number.

  The precondition is the conjunction, over the six inputs, of "every |entry| is below +∞"; an extended real whose
  absolute value is below +∞ is a real number.
-/
import proofs.«129319_j8839042695322_1_alg».proof.Pre_finite_inputs
import proofs.«129319_j8839042695322_1_alg».proof.Proof.Gen.Pre_finite_inputs
import proofs.«129319_j8839042695322_1_alg».proof.Proof.Spec
import Idealize.ShloMosaic.Lib.ReduceAll
import Idealize.ShloMosaic.Lib.ValueIdx

noncomputable section

namespace Cert.Pre_finite_inputs.Decode

open Idealize.ShloMosaic Idealize.ShloMosaic.ValueIdx
open Cert.Pre_finite_inputs Cert.Pre_finite_inputs.Gen Cert.Harmonics

/-- The word with all-ones exponent and zero significand is +∞. -/
private theorem inf_word : Ideal.ofBits .f32 0x7F800000#32 = (⊤ : EReal) := by
  show Ideal.ieee 8 23 (0x7F800000#32) = ⊤
  unfold Ideal.ieee
  dsimp only
  rw [if_pos (by decide), if_pos (by decide), if_neg (by decide)]

/-- An extended real whose absolute value max x (−x) compares below +∞ is a real number: at −∞ and at +∞ the absolute
    value is +∞ itself. -/
private theorem real_of_abs_lt (x : EReal)
    (h : Ideal.cmp .olt (max x (-x)) (Ideal.ofBits .f32 0x7F800000#32) = 1#1) : ∃ r : ℝ, x = (r : EReal) := by
  rw [inf_word] at h
  have h1 : BitVec.ofBool (decide (max x (-x) < (⊤ : EReal))) = 1#1 := h
  have h2 : max x (-x) < (⊤ : EReal) := by
    by_contra hc
    rw [decide_eq_false hc] at h1
    exact absurd h1 (by decide)
  induction x using EReal.rec with
  | bot => exact absurd h2 (by simp)
  | coe r => exact ⟨r, rfl⟩
  | top => exact absurd h2 (by simp)

/-- The result of the precondition has one index. -/
private instance : Subsingleton S_.Idx := ⟨fun a b => funext fun d => d.elim0⟩

/-- Under the precondition every coordinate of every point is a real number, and so is every entry of W0 and of W1. -/
theorem reals_of_pre (X : FVec Ideal S32x32768x3 .f32) (W0 : FVec Ideal S2x4 .f32) (b0 : FVec Ideal S4 .f32)
    (W1 : FVec Ideal S2x4 .f32) (W2 W3 : FVec Ideal S1x4 .f32)
    (h : Cert.Pre_finite_inputs.fn (F := Ideal) X W0 b0 W1 W2 W3 = fun _ => 1#1) :
    (∀ i, ∃ r : ℝ, X i = (r : EReal)) ∧ (∀ i, ∃ r : ℝ, W0 i = (r : EReal)) ∧ (∀ i, ∃ r : ℝ, W1 i = (r : EReal)) := by
  have h0 := congrFun h ValueIdx.ix0
  dsimp only [fn, fn_part1] at h0
  -- the six-fold conjunction, taken apart from the outside in
  obtain ⟨h5, _⟩ := IntOp.andi_eq_one.1 h0
  obtain ⟨h4, _⟩ := IntOp.andi_eq_one.1 h5
  obtain ⟨h3, hW1⟩ := IntOp.andi_eq_one.1 h4
  obtain ⟨h2, _⟩ := IntOp.andi_eq_one.1 h3
  obtain ⟨hX, hW0⟩ := IntOp.andi_eq_one.1 h2
  -- each conjunct is "all entries compare below +∞"; an entry that does is a real number
  refine ⟨fun i => real_of_abs_lt (X i) ?_, fun i => real_of_abs_lt (W0 i) ?_, fun i => real_of_abs_lt (W1 i) ?_⟩
  · exact Host.reduce_andi_all _ _ _ _ ValueIdx.ix0 hX i
  · exact Host.reduce_andi_all _ _ _ _ ValueIdx.ix0 hW0 i
  · exact Host.reduce_andi_all _ _ _ _ ValueIdx.ix0 hW1 i

end Cert.Pre_finite_inputs.Decode

end
-- ==== Proof.KernelDeg.lean ====
/-
  The kernel body's harmonics, entry by entry.

  From the loaded block of points the body slices the three coordinate columns, squares them, adds the squares, and
  builds each degree's harmonics as columns joined side by side.  Read at point r of the block (and harmonic k) these are
  `Cert.Harmonics.normSq`, `deg1`, `deg2`, `deg3` of the point's coordinates: the same expressions, constant for
  constant, with nothing to compute.
-/
import proofs.«129319_j8839042695322_1_alg».proof.Proof.Gen.KernelIdeal.Skeleton
import proofs.«129319_j8839042695322_1_alg».proof.Proof.Spec
import Idealize.ShloMosaic.Lib.Pipeline.Value
import Idealize.ShloMosaic.Lib.ValueIdx
import Idealize.ShloMosaic.Lib.ValueLayout

set_option maxRecDepth 16384

noncomputable section

namespace Cert.KernelIdeal.BlockValue

open Idealize.ShloMosaic Idealize.ShloMosaic.ValueIdx Idealize.SL.Sem
open Cert.KernelIdeal Cert.KernelIdeal.Gen Cert.Harmonics

/-- A column [a, 1] viewed as a vector [a] reads, at i, the column at (i, 0): the two row-major positions are both i. -/
private theorem shapeCast_a1_a_apply {α : Type} {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- A vector [a] viewed as a column [a, 1] reads, at (i, u), the vector at i, whatever the unit coordinate u. -/
private theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- A matrix [a, b] viewed as [a, b, 1] reads, at (i, j, u), the matrix at (i, j), whatever the unit coordinate u. -/
private theorem shapeCast_ab_ab1_apply {α : Type} {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    omega)

/-- Columns [n, 1] joined side by side into [n, m]: entry (r, c) is entry (r, 0) of column number c, the piece with c
    unit extents before it. -/
private theorem concat_cols_apply {α : Type} {n m : ℕ} (xs : List ((s : Shape) × (s.Idx → α)))
    (h : Shape.Concatenates (xs.map (·.1)) ⟨2, ![n, m]⟩ (1 : Fin 2)) (r : Fin n) (c : Fin m)
    (k : ℕ) (hk : k < xs.length) (x₁ : (⟨2, ![n, 1]⟩ : Shape).Idx → α) (hxk : xs[k] = ⟨⟨2, ![n, 1]⟩, x₁⟩)
    (hpre : (((xs.take k).map (·.1)).map fun s =>
      if h : s.rank = (⟨2, ![n, m]⟩ : Shape).rank then s.size ((1 : Fin 2).cast h.symm) else 0).sum = c.val) :
    concatenate ⟨2, ![n, m]⟩ (1 : Fin 2) xs h (ix2 r c) = x₁ (ix2 r (0 : Fin 1)) :=
  concatenate_apply_piece (1 : Fin 2) xs h (ix2 r c) k hk _ x₁ hxk rfl c.val hpre (ix2 r (0 : Fin 1))
    (fun b => match b with
      | ⟨0, _⟩ => fun _ => rfl
      | ⟨1, _⟩ => fun hb => absurd rfl hb)
    (Nat.add_zero _)

/-- The three coordinate columns of the block, read at point r. -/
theorem px_apply (x0 : Vec Ideal S1x8192x3 .f32) (r : Fin 8192) : k0_pay3 x0 (ix1 r) = x0 (ix3 (0 : Fin 1) r (0 : Fin 3)) := by
  unfold k0_pay3 k0_pay2
  refine (shapeCast_a1_a_apply _ _ r).trans ?_
  refine (slice2_axis1_apply 0 _ _ r (0 : Fin 1) (0 : Fin 3) rfl).trans ?_
  exact shapeCast_1ab_ab_apply x0 _ r (0 : Fin 3)
theorem py_apply (x0 : Vec Ideal S1x8192x3 .f32) (r : Fin 8192) : k0_pay4 x0 (ix1 r) = x0 (ix3 (0 : Fin 1) r (1 : Fin 3)) := by
  unfold k0_pay4 k0_pay2
  refine (shapeCast_a1_a_apply _ _ r).trans ?_
  refine (slice2_axis1_apply 1 _ _ r (0 : Fin 1) (1 : Fin 3) rfl).trans ?_
  exact shapeCast_1ab_ab_apply x0 _ r (1 : Fin 3)
theorem pz_apply (x0 : Vec Ideal S1x8192x3 .f32) (r : Fin 8192) : k0_pay5 x0 (ix1 r) = x0 (ix3 (0 : Fin 1) r (2 : Fin 3)) := by
  unfold k0_pay5 k0_pay2
  refine (shapeCast_a1_a_apply _ _ r).trans ?_
  refine (slice2_axis1_apply 2 _ _ r (0 : Fin 1) (2 : Fin 3) rfl).trans ?_
  exact shapeCast_1ab_ab_apply x0 _ r (2 : Fin 3)

/-- The squared norm of point r. -/
theorem normSq_apply (x0 : Vec Ideal S1x8192x3 .f32) (r : Fin 8192) :
    k0_pay9 x0 (ix1 r)
      = normSq (x0 (ix3 (0 : Fin 1) r (0 : Fin 3))) (x0 (ix3 (0 : Fin 1) r (1 : Fin 3))) (x0 (ix3 (0 : Fin 1) r (2 : Fin 3))) := by
  unfold k0_pay9 k0_pay6 k0_pay7 k0_pay8
  simp only [addf_apply, mulf_apply]
  rw [px_apply, py_apply, pz_apply]
  rfl

/-- The squares of the three coordinates at point r. -/
private theorem xx_apply (x0 : Vec Ideal S1x8192x3 .f32) (r : Fin 8192) :
    k0_pay6 x0 (ix1 r) = x0 (ix3 (0 : Fin 1) r (0 : Fin 3)) * x0 (ix3 (0 : Fin 1) r (0 : Fin 3)) := by
  unfold k0_pay6
  simp only [mulf_apply, px_apply]
private theorem yy_apply (x0 : Vec Ideal S1x8192x3 .f32) (r : Fin 8192) :
    k0_pay7 x0 (ix1 r) = x0 (ix3 (0 : Fin 1) r (1 : Fin 3)) * x0 (ix3 (0 : Fin 1) r (1 : Fin 3)) := by
  unfold k0_pay7
  simp only [mulf_apply, py_apply]
private theorem zz_apply (x0 : Vec Ideal S1x8192x3 .f32) (r : Fin 8192) :
    k0_pay8 x0 (ix1 r) = x0 (ix3 (0 : Fin 1) r (2 : Fin 3)) * x0 (ix3 (0 : Fin 1) r (2 : Fin 3)) := by
  unfold k0_pay8
  simp only [mulf_apply, pz_apply]

/-- The two values the degree-3 columns take over from the first part of the body: c33 · y, and the constant 3. -/
private theorem c33y_apply (x0 : Vec Ideal S1x8192x3 .f32) (r : Fin 8192) :
    k0_pay12 x0 (ix1 r) = c33 * x0 (ix3 (0 : Fin 1) r (1 : Fin 3)) := by
  unfold k0_pay12
  simp only [mulf_apply, broadcast_apply, py_apply]
  rfl
private theorem three_apply (r : Fin 8192) : k0_pay13 (F := Ideal) (ix1 r) = three := by
  unfold k0_pay13
  rfl

/-- Harmonic k of degree 1 at point r. -/
theorem deg1_apply (x0 : Vec Ideal S1x8192x3 .f32) (r : Fin 8192) (k : Fin 3) :
    k0_pay10 x0 (ix2 r k)
      = deg1 k (x0 (ix3 (0 : Fin 1) r (0 : Fin 3))) (x0 (ix3 (0 : Fin 1) r (1 : Fin 3))) (x0 (ix3 (0 : Fin 1) r (2 : Fin 3))) := by
  unfold k0_pay10
  simp only [mulf_apply, broadcast_apply]
  match k with
  | ⟨0, _⟩ =>
    refine congrArg₂ (· * ·) rfl ?_
    refine (concat_cols_apply _ _ r _ 0 (by simp) _ (by rfl) (by rfl)).trans ?_
    refine (shapeCast_a_a1_apply _ _ r 0).trans ?_
    exact py_apply x0 r
  | ⟨1, _⟩ =>
    refine congrArg₂ (· * ·) rfl ?_
    refine (concat_cols_apply _ _ r _ 1 (by simp) _ (by rfl) (by rfl)).trans ?_
    refine (shapeCast_a_a1_apply _ _ r 0).trans ?_
    exact pz_apply x0 r
  | ⟨2, _⟩ =>
    refine congrArg₂ (· * ·) rfl ?_
    refine (concat_cols_apply _ _ r _ 2 (by simp) _ (by rfl) (by rfl)).trans ?_
    refine (shapeCast_a_a1_apply _ _ r 0).trans ?_
    exact px_apply x0 r

/-- Harmonic k of degree 2 at point r. -/
theorem deg2_apply (x0 : Vec Ideal S1x8192x3 .f32) (r : Fin 8192) (k : Fin 5) :
    k0_pay11 x0 (ix2 r k)
      = deg2 k (x0 (ix3 (0 : Fin 1) r (0 : Fin 3))) (x0 (ix3 (0 : Fin 1) r (1 : Fin 3))) (x0 (ix3 (0 : Fin 1) r (2 : Fin 3))) := by
  unfold k0_pay11
  match k with
  | ⟨0, _⟩ =>
    refine (concat_cols_apply _ _ r _ 0 (by simp) _ (by rfl) (by rfl)).trans ?_
    refine (shapeCast_a_a1_apply _ _ r 0).trans ?_
    simp only [mulf_apply, subf_apply, broadcast_apply, px_apply, py_apply, pz_apply, xx_apply, yy_apply, zz_apply]
    rfl
  | ⟨1, _⟩ =>
    refine (concat_cols_apply _ _ r _ 1 (by simp) _ (by rfl) (by rfl)).trans ?_
    refine (shapeCast_a_a1_apply _ _ r 0).trans ?_
    simp only [mulf_apply, subf_apply, broadcast_apply, px_apply, py_apply, pz_apply, xx_apply, yy_apply, zz_apply]
    rfl
  | ⟨2, _⟩ =>
    refine (concat_cols_apply _ _ r _ 2 (by simp) _ (by rfl) (by rfl)).trans ?_
    refine (shapeCast_a_a1_apply _ _ r 0).trans ?_
    simp only [mulf_apply, subf_apply, broadcast_apply, px_apply, py_apply, pz_apply, xx_apply, yy_apply, zz_apply]
    rfl
  | ⟨3, _⟩ =>
    refine (concat_cols_apply _ _ r _ 3 (by simp) _ (by rfl) (by rfl)).trans ?_
    refine (shapeCast_a_a1_apply _ _ r 0).trans ?_
    simp only [mulf_apply, subf_apply, broadcast_apply, px_apply, py_apply, pz_apply, xx_apply, yy_apply, zz_apply]
    rfl
  | ⟨4, _⟩ =>
    refine (concat_cols_apply _ _ r _ 4 (by simp) _ (by rfl) (by rfl)).trans ?_
    refine (shapeCast_a_a1_apply _ _ r 0).trans ?_
    simp only [mulf_apply, subf_apply, broadcast_apply, px_apply, py_apply, pz_apply, xx_apply, yy_apply, zz_apply]
    rfl

/-- The body's degree-3 harmonics, as the store's payload names them: seven columns joined, with a unit axis behind. -/
def deg3Block (x0 : Vec Ideal S1x8192x3 .f32) : FVec Ideal S8192x7x1 .f32 :=
  k0_pay24 (k0_pay14 (k0_pay3 x0) (k0_pay6 x0) (k0_pay7 x0)) (k0_pay15 (k0_pay6 x0) (k0_pay7 x0) (k0_pay12 x0) (k0_pay13 (F := Ideal)))
    (k0_pay16 (k0_pay3 x0) (k0_pay4 x0) (k0_pay5 x0)) (k0_pay17 (k0_pay4 x0) (k0_pay6 x0) (k0_pay7 x0) (k0_pay8 x0))
    (k0_pay18 (k0_pay5 x0) (k0_pay6 x0) (k0_pay7 x0) (k0_pay8 x0)) (k0_pay19 (k0_pay3 x0) (k0_pay6 x0) (k0_pay7 x0) (k0_pay8 x0))
    (k0_pay20 (k0_pay5 x0) (k0_pay6 x0) (k0_pay7 x0))

/-- Harmonic k of degree 3 at point r. -/
theorem deg3_apply (x0 : Vec Ideal S1x8192x3 .f32) (r : Fin 8192) (k : Fin 7) :
    deg3Block x0 (ix3 r k (0 : Fin 1))
      = deg3 k (x0 (ix3 (0 : Fin 1) r (0 : Fin 3))) (x0 (ix3 (0 : Fin 1) r (1 : Fin 3))) (x0 (ix3 (0 : Fin 1) r (2 : Fin 3))) := by
  unfold deg3Block k0_pay24
  match k with
  | ⟨0, _⟩ =>
    refine (shapeCast_ab_ab1_apply _ _ r _ 0).trans ?_
    refine (concat_cols_apply _ _ r _ 0 (by simp) _ (by rfl) (by rfl)).trans ?_
    unfold k0_pay15
    refine (shapeCast_a_a1_apply _ _ r 0).trans ?_
    simp only [mulf_apply, subf_apply, broadcast_apply, px_apply, py_apply, pz_apply, xx_apply, yy_apply, zz_apply, c33y_apply, three_apply]
    rfl
  | ⟨1, _⟩ =>
    refine (shapeCast_ab_ab1_apply _ _ r _ 0).trans ?_
    refine (concat_cols_apply _ _ r _ 1 (by simp) _ (by rfl) (by rfl)).trans ?_
    unfold k0_pay16
    refine (shapeCast_a_a1_apply _ _ r 0).trans ?_
    simp only [mulf_apply, subf_apply, broadcast_apply, px_apply, py_apply, pz_apply, xx_apply, yy_apply, zz_apply, c33y_apply, three_apply]
    rfl
  | ⟨2, _⟩ =>
    refine (shapeCast_ab_ab1_apply _ _ r _ 0).trans ?_
    refine (concat_cols_apply _ _ r _ 2 (by simp) _ (by rfl) (by rfl)).trans ?_
    unfold k0_pay17
    refine (shapeCast_a_a1_apply _ _ r 0).trans ?_
    simp only [mulf_apply, subf_apply, broadcast_apply, px_apply, py_apply, pz_apply, xx_apply, yy_apply, zz_apply, c33y_apply, three_apply]
    rfl
  | ⟨3, _⟩ =>
    refine (shapeCast_ab_ab1_apply _ _ r _ 0).trans ?_
    refine (concat_cols_apply _ _ r _ 3 (by simp) _ (by rfl) (by rfl)).trans ?_
    unfold k0_pay18
    refine (shapeCast_a_a1_apply _ _ r 0).trans ?_
    simp only [mulf_apply, subf_apply, broadcast_apply, px_apply, py_apply, pz_apply, xx_apply, yy_apply, zz_apply, c33y_apply, three_apply]
    rfl
  | ⟨4, _⟩ =>
    refine (shapeCast_ab_ab1_apply _ _ r _ 0).trans ?_
    refine (concat_cols_apply _ _ r _ 4 (by simp) _ (by rfl) (by rfl)).trans ?_
    unfold k0_pay19
    refine (shapeCast_a_a1_apply _ _ r 0).trans ?_
    simp only [mulf_apply, subf_apply, broadcast_apply, px_apply, py_apply, pz_apply, xx_apply, yy_apply, zz_apply, c33y_apply, three_apply]
    rfl
  | ⟨5, _⟩ =>
    refine (shapeCast_ab_ab1_apply _ _ r _ 0).trans ?_
    refine (concat_cols_apply _ _ r _ 5 (by simp) _ (by rfl) (by rfl)).trans ?_
    unfold k0_pay20
    refine (shapeCast_a_a1_apply _ _ r 0).trans ?_
    simp only [mulf_apply, subf_apply, broadcast_apply, px_apply, py_apply, pz_apply, xx_apply, yy_apply, zz_apply, c33y_apply, three_apply]
    rfl
  | ⟨6, _⟩ =>
    refine (shapeCast_ab_ab1_apply _ _ r _ 0).trans ?_
    refine (concat_cols_apply _ _ r _ 6 (by simp) _ (by rfl) (by rfl)).trans ?_
    unfold k0_pay14
    refine (shapeCast_a_a1_apply _ _ r 0).trans ?_
    simp only [mulf_apply, subf_apply, broadcast_apply, px_apply, py_apply, pz_apply, xx_apply, yy_apply, zz_apply, c33y_apply, three_apply]
    rfl

end Cert.KernelIdeal.BlockValue

end
-- ==== Proof.KernelRow.lean ====
/-
  The kernel body's one stored value, entry by entry.

  The body loads the block of 8192 points (as [1, 8192, 3]) and the five weight arrays, and stores one [1, 8192, 64]
  value.  Entry (0, r, 4 m + u) of that value is entry (m, u) of the FACTORED row (`Cert.Harmonics.row`) of point r of the
  block: the sixty-four lanes are the sixteen harmonics' four channels laid end to end, the harmonics being joined along
  the middle axis from the degree-0, 1, 2 and 3 pieces, and each degree's harmonics joined from one column per harmonic.
-/
import proofs.«129319_j8839042695322_1_alg».proof.Proof.Gen.KernelIdeal.Skeleton
import proofs.«129319_j8839042695322_1_alg».proof.Proof.KernelDeg
import proofs.«129319_j8839042695322_1_alg».proof.Proof.Spec
import Idealize.ShloMosaic.Lib.Pipeline.Value
import Idealize.ShloMosaic.Lib.ValueIdx
import Idealize.ShloMosaic.Lib.ValueLayout

set_option maxRecDepth 16384

noncomputable section

namespace Cert.KernelIdeal.BlockValue

open Idealize.ShloMosaic Idealize.ShloMosaic.ValueIdx Idealize.SL.Sem
open Cert.KernelIdeal Cert.KernelIdeal.Gen Cert.Harmonics

/-- What the body stores, as one function of the six loaded values: the store's payload over the loads' payloads. -/
def block (x0 : Vec Ideal S1x8192x3 .f32) (w0 : Vec Ideal S2x4 .f32) (b0 : Vec Ideal S4 .f32) (w1 : Vec Ideal S2x4 .f32)
    (w2 w3 : Vec Ideal S1x4 .f32) : FVec Ideal S1x8192x64 .f32 :=
  k0_pay1 (k0_pay21 (k0_pay9 x0) w0 b0) (k0_pay22 (k0_pay9 x0) (k0_pay10 x0) w1) (k0_pay23 (k0_pay11 x0) w2)
    (deg3Block x0)
    (k0_pay25 w3)

/-! ## Layout operations at small shapes, read at coordinates

Each lemma reads one re-indexing (a unit axis added or dropped, a spreading along an axis of extent one) at an index
given by its coordinates: the operand's entry at the same row-major position, resp. at coordinate 0 on the unit axis. -/

section Layout
variable {α : Type}

/-- A vector viewed as a column, [a] as [a, 1]: entry (p, 0) is entry p. -/
private theorem cast_a_a1 {a : ℕ} (v : (⟨1, ![a]⟩ : Shape).Idx → α) (h : (⟨1, ![a]⟩ : Shape).ShapeCasts ⟨2, ![a, 1]⟩)
    (p : Fin a) (z : Fin 1) : shapeCast ⟨2, ![a, 1]⟩ v h (ix2 p z) = v (ix1 p) :=
  shapeCast_apply v h _ _ (by
    have hz : z.val = 0 := by omega
    rw [Shape.rowMajor_val_two, Shape.rowMajor_val_one]
    show p.val = p.val * 1 + z.val
    rw [hz, Nat.mul_one, Nat.add_zero])

/-- A matrix given a trailing unit axis, [a, b] as [a, b, 1]: entry (p, q, 0) is entry (p, q). -/
private theorem cast_ab_ab1 {a b : ℕ} (v : (⟨2, ![a, b]⟩ : Shape).Idx → α) (h : (⟨2, ![a, b]⟩ : Shape).ShapeCasts ⟨3, ![a, b, 1]⟩)
    (p : Fin a) (q : Fin b) (z : Fin 1) : shapeCast ⟨3, ![a, b, 1]⟩ v h (ix3 p q z) = v (ix2 p q) :=
  shapeCast_apply v h _ _ (by
    have hz : z.val = 0 := by omega
    rw [Shape.rowMajor_val_three, Shape.rowMajor_val_two]
    show p.val * b + q.val = (p.val * b + q.val) * 1 + z.val
    rw [hz, Nat.mul_one, Nat.add_zero])

/-- A matrix given a middle unit axis, [a, c] as [a, 1, c]: entry (p, 0, e) is entry (p, e). -/
private theorem cast_ac_a1c {a c : ℕ} (v : (⟨2, ![a, c]⟩ : Shape).Idx → α) (h : (⟨2, ![a, c]⟩ : Shape).ShapeCasts ⟨3, ![a, 1, c]⟩)
    (p : Fin a) (z : Fin 1) (e : Fin c) : shapeCast ⟨3, ![a, 1, c]⟩ v h (ix3 p z e) = v (ix2 p e) :=
  shapeCast_apply v h _ _ (by
    have hz : z.val = 0 := by omega
    rw [Shape.rowMajor_val_three, Shape.rowMajor_val_two]
    show p.val * c + e.val = (p.val * 1 + z.val) * c + e.val
    rw [hz, Nat.mul_one, Nat.add_zero])

/-- A vector given two leading unit axes, [c] as [1, 1, c]: entry (0, 0, e) is entry e. -/
private theorem cast_c_11c {c : ℕ} (v : (⟨1, ![c]⟩ : Shape).Idx → α) (h : (⟨1, ![c]⟩ : Shape).ShapeCasts ⟨3, ![1, 1, c]⟩)
    (y z : Fin 1) (e : Fin c) : shapeCast ⟨3, ![1, 1, c]⟩ v h (ix3 y z e) = v (ix1 e) :=
  shapeCast_apply v h _ _ (by
    have hy : y.val = 0 := by omega
    have hz : z.val = 0 := by omega
    rw [Shape.rowMajor_val_three, Shape.rowMajor_val_one]
    show e.val = (y.val * 1 + z.val) * c + e.val
    simp only [hy, hz, Nat.zero_mul, Nat.zero_add])

/-- A column spread along the rows' entries, [a, 1] to [a, b]: entry (p, e) is the column's entry p. -/
private theorem spread_a1_ab {a b : ℕ} (v : (⟨2, ![a, 1]⟩ : Shape).Idx → α) (h : (⟨2, ![a, 1]⟩ : Shape).Broadcasts ⟨2, ![a, b]⟩)
    (p : Fin a) (e : Fin b) : broadcastTo ⟨2, ![a, b]⟩ v h (ix2 p e) = v (ix2 p (0 : Fin 1)) := by
  refine broadcastTo_apply v h (ix2 p e) (ix2 p (0 : Fin 1)) fun ax => ?_
  match ax with
  | ⟨0, _⟩ =>
    show p.val = if a = 1 then 0 else p.val
    split
    · have := p.isLt; omega
    · rfl
  | ⟨1, _⟩ => rfl

/-- [a, b, 1] spread to [a, b, c]: entry (p, q, e) is the operand's entry (p, q, 0). -/
private theorem spread_ab1_abc {a b c : ℕ} (v : (⟨3, ![a, b, 1]⟩ : Shape).Idx → α)
    (h : (⟨3, ![a, b, 1]⟩ : Shape).Broadcasts ⟨3, ![a, b, c]⟩) (p : Fin a) (q : Fin b) (e : Fin c) :
    broadcastTo ⟨3, ![a, b, c]⟩ v h (ix3 p q e) = v (ix3 p q (0 : Fin 1)) := by
  refine broadcastTo_apply v h (ix3 p q e) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

/-- [a, 1, c] spread to [a, b, c]: entry (p, q, e) is the operand's entry (p, 0, e). -/
private theorem spread_a1c_abc {a b c : ℕ} (v : (⟨3, ![a, 1, c]⟩ : Shape).Idx → α)
    (h : (⟨3, ![a, 1, c]⟩ : Shape).Broadcasts ⟨3, ![a, b, c]⟩) (p : Fin a) (q : Fin b) (e : Fin c) :
    broadcastTo ⟨3, ![a, b, c]⟩ v h (ix3 p q e) = v (ix3 p (0 : Fin 1) e) := by
  refine broadcastTo_apply v h (ix3 p q e) (ix3 p (0 : Fin 1) e) fun ax => ?_
  match ax with
  | ⟨0, _⟩ =>
    show p.val = if a = 1 then 0 else p.val
    split
    · have := p.isLt; omega
    · rfl
  | ⟨1, _⟩ => rfl
  | ⟨2, _⟩ =>
    show e.val = if c = 1 then 0 else e.val
    split
    · have := e.isLt; omega
    · rfl

/-- [1, 1, c] spread to [a, b, c]: entry (p, q, e) is the operand's entry (0, 0, e). -/
private theorem spread_11c_abc {a b c : ℕ} (v : (⟨3, ![1, 1, c]⟩ : Shape).Idx → α)
    (h : (⟨3, ![1, 1, c]⟩ : Shape).Broadcasts ⟨3, ![a, b, c]⟩) (p : Fin a) (q : Fin b) (e : Fin c) :
    broadcastTo ⟨3, ![a, b, c]⟩ v h (ix3 p q e) = v (ix3 (0 : Fin 1) (0 : Fin 1) e) := by
  refine broadcastTo_apply v h (ix3 p q e) (ix3 (0 : Fin 1) (0 : Fin 1) e) fun ax => ?_
  match ax with
  | ⟨0, _⟩ => rfl
  | ⟨1, _⟩ => rfl
  | ⟨2, _⟩ =>
    show e.val = if c = 1 then 0 else e.val
    split
    · have := e.isLt; omega
    · rfl

end Layout

/-! ## The weights as the body reads them -/

/-- Row 0 of a [2, 4] weight, cut out, flattened, given its unit axis back and spread over the points: W[0, u]. -/
private theorem wrow0_apply (w : Vec Ideal S2x4 .f32) (r : Fin 8192) (u : Fin 4) :
    broadcastTo S8192x4 (shapeCast S1x4 (shapeCast S4 (extractStridedSlice S1x4 ![0, 0] w slices_S2x4_o0_0_S1x4)
      shapeCasts_S1x4_S4) shapeCasts_S4_S1x4) broadcasts_S1x4_S8192x4 (ix2 r u) = w (ix2 (0 : Fin 2) u) := by
  rw [broadcastTo_1b_ab_apply, shapeCast_a_1a_apply, shapeCast_1a_a_apply]
  exact slice2_axis0_apply 0 w slices_S2x4_o0_0_S1x4 (0 : Fin 1) u (0 : Fin 2) rfl

/-- Row 1 of a [2, 4] weight, the same way: W[1, u]. -/
private theorem wrow1_apply (w : Vec Ideal S2x4 .f32) (r : Fin 8192) (u : Fin 4) :
    broadcastTo S8192x4 (shapeCast S1x4 (shapeCast S4 (extractStridedSlice S1x4 ![1, 0] w slices_S2x4_o1_0_S1x4)
      shapeCasts_S1x4_S4) shapeCasts_S4_S1x4) broadcasts_S1x4_S8192x4 (ix2 r u) = w (ix2 (1 : Fin 2) u) := by
  rw [broadcastTo_1b_ab_apply, shapeCast_a_1a_apply, shapeCast_1a_a_apply]
  exact slice2_axis0_apply 1 w slices_S2x4_o1_0_S1x4 (0 : Fin 1) u (1 : Fin 2) rfl

/-- The bias given a unit axis and spread over the points: b[u]. -/
private theorem bias_apply (b : Vec Ideal S4 .f32) (r : Fin 8192) (u : Fin 4) :
    broadcastTo S8192x4 (shapeCast S1x4 b shapeCasts_S4_S1x4) broadcasts_S1x4_S8192x4 (ix2 r u) = b (ix1 u) := by
  rw [broadcastTo_1b_ab_apply, shapeCast_a_1a_apply]

/-- A per-point quantity as a column, spread over the four channels: its value at the point. -/
private theorem col_apply (v : FVec Ideal S8192 .f32) (r : Fin 8192) (u : Fin 4) :
    broadcastTo S8192x4 (shapeCast S8192x1 v shapeCasts_S8192_S8192x1) broadcasts_S8192x1_S8192x4 (ix2 r u) = v (ix1 r) := by
  rw [spread_a1_ab, cast_a_a1]

/-- A [1, 4] weight flattened and given two unit axes: entry (0, 0, u) is W[0, u]. -/
private theorem w14_apply (w : Vec Ideal S1x4 .f32) (u : Fin 4) :
    shapeCast S1x1x4 (shapeCast S4 w shapeCasts_S1x4_S4) shapeCasts_S4_S1x1x4 (ix3 (0 : Fin 1) (0 : Fin 1) u)
      = w (ix2 (0 : Fin 1) u) := by
  rw [cast_c_11c, shapeCast_1a_a_apply]

/-! ## The four pieces of the row, each at its own coordinates -/

/-- The degree-0 piece at (r, u): c0 · (W0[0,u] + |p|² · W0[1,u]) + b0[u]. -/
private theorem piece0_apply (x0 : Vec Ideal S1x8192x3 .f32) (w0 : Vec Ideal S2x4 .f32) (b0 : Vec Ideal S4 .f32)
    (r : Fin 8192) (u : Fin 4) :
    k0_pay21 (k0_pay9 x0) w0 b0 (ix2 r u)
      = c0 * (w0 (ix2 0 u)
          + normSq (x0 (ix3 (0 : Fin 1) r (0 : Fin 3))) (x0 (ix3 (0 : Fin 1) r (1 : Fin 3))) (x0 (ix3 (0 : Fin 1) r (2 : Fin 3)))
            * w0 (ix2 1 u)) + b0 (ix1 u) := by
  unfold k0_pay21
  simp only [addf_apply, mulf_apply, broadcast_apply]
  rw [wrow0_apply, wrow1_apply, bias_apply, col_apply, normSq_apply]
  rfl

/-- The degree-1 piece at (r, k, u): deg1 k · (W1[0,u] + |p|² · W1[1,u]). -/
private theorem piece1_apply (x0 : Vec Ideal S1x8192x3 .f32) (w1 : Vec Ideal S2x4 .f32) (r : Fin 8192) (k : Fin 3) (u : Fin 4) :
    k0_pay22 (k0_pay9 x0) (k0_pay10 x0) w1 (ix3 r k u)
      = deg1 k (x0 (ix3 (0 : Fin 1) r (0 : Fin 3))) (x0 (ix3 (0 : Fin 1) r (1 : Fin 3))) (x0 (ix3 (0 : Fin 1) r (2 : Fin 3)))
        * (w1 (ix2 0 u)
          + normSq (x0 (ix3 (0 : Fin 1) r (0 : Fin 3))) (x0 (ix3 (0 : Fin 1) r (1 : Fin 3))) (x0 (ix3 (0 : Fin 1) r (2 : Fin 3)))
            * w1 (ix2 1 u)) := by
  unfold k0_pay22
  simp only [addf_apply, mulf_apply]
  rw [spread_ab1_abc, cast_ab_ab1, spread_a1c_abc, cast_ac_a1c]
  simp only [addf_apply, mulf_apply]
  rw [wrow0_apply, wrow1_apply, col_apply, normSq_apply, deg1_apply]

/-- The degree-2 piece at (r, k, u): deg2 k · W2[0,u]. -/
private theorem piece2_apply (x0 : Vec Ideal S1x8192x3 .f32) (w2 : Vec Ideal S1x4 .f32) (r : Fin 8192) (k : Fin 5) (u : Fin 4) :
    k0_pay23 (k0_pay11 x0) w2 (ix3 r k u)
      = deg2 k (x0 (ix3 (0 : Fin 1) r (0 : Fin 3))) (x0 (ix3 (0 : Fin 1) r (1 : Fin 3))) (x0 (ix3 (0 : Fin 1) r (2 : Fin 3)))
        * w2 (ix2 0 u) := by
  unfold k0_pay23
  simp only [mulf_apply]
  rw [spread_ab1_abc, cast_ab_ab1, spread_11c_abc, w14_apply, deg2_apply]

/-- The degree-3 piece at (r, k, u): deg3 k · W3[0,u]. -/
private theorem piece3_apply (x0 : Vec Ideal S1x8192x3 .f32) (w3 : Vec Ideal S1x4 .f32) (r : Fin 8192) (k : Fin 7) (u : Fin 4) :
    mulf (F := Ideal) (broadcastTo S8192x7x4 (deg3Block x0) broadcasts_S8192x7x1_S8192x7x4)
        (broadcastTo S8192x7x4 (k0_pay25 w3) broadcasts_S1x1x4_S8192x7x4) (ix3 r k u)
      = deg3 k (x0 (ix3 (0 : Fin 1) r (0 : Fin 3))) (x0 (ix3 (0 : Fin 1) r (1 : Fin 3))) (x0 (ix3 (0 : Fin 1) r (2 : Fin 3)))
        * w3 (ix2 0 u) := by
  unfold k0_pay25
  simp only [mulf_apply]
  rw [spread_ab1_abc, spread_11c_abc, w14_apply, deg3_apply]

/-- Entry (0, r, q) of the stored value, q = 4 m + u, is entry (m, u) of the factored row of the block's point r. -/
theorem block_apply (x0 : Vec Ideal S1x8192x3 .f32) (w0 : Vec Ideal S2x4 .f32) (b0 : Vec Ideal S4 .f32) (w1 : Vec Ideal S2x4 .f32)
    (w2 w3 : Vec Ideal S1x4 .f32) (r : Fin 8192) (m : Fin 16) (u : Fin 4) (q : Fin 64) (hq : q.val = 4 * m.val + u.val) :
    block x0 w0 b0 w1 w2 w3 (ix3 (0 : Fin 1) r q)
      = row m u (x0 (ix3 (0 : Fin 1) r (0 : Fin 3))) (x0 (ix3 (0 : Fin 1) r (1 : Fin 3))) (x0 (ix3 (0 : Fin 1) r (2 : Fin 3))) w0 b0 w1 w2 w3 := by
  unfold block k0_pay1
  -- the stored [1, 8192, 64] value is the [8192, 64] one behind a unit axis, and that the [8192, 16, 4] one flattened:
  -- positions r · 64 + q and (r · 16 + m) · 4 + u agree
  rw [shapeCast_ab_1ab_apply]
  refine (shapeCast_apply _ shapeCasts_S8192x16x4_S8192x64 (ix2 r q) (ix3 r m u) ?_).trans ?_
  · rw [Shape.rowMajor_val_three, Shape.rowMajor_val_two]
    show (r.val * 16 + m.val) * 4 + u.val = r.val * 64 + q.val
    omega
  -- harmonic m lies in the piece of its degree, at m less the harmonics of the lower degrees
  unfold row
  by_cases h0 : m.val < 1
  · rw [dif_pos h0]
    refine (concatenate_apply_piece _ _ _ (ix3 r m u) 0 (by show (0 : ℕ) < 4; omega)
      S8192x1x4 _ rfl rfl 0 rfl (ix3 r (0 : Fin 1) u) ?_ ?_).trans ?_
    · intro b hb
      match b with
      | ⟨0, _⟩ => rfl
      | ⟨1, _⟩ => exact absurd rfl hb
      | ⟨2, _⟩ => rfl
    · show 0 + 0 = m.val
      omega
    · rw [cast_ac_a1c, piece0_apply]
  · rw [dif_neg h0]
    by_cases h1 : m.val < 4
    · rw [dif_pos h1]
      refine (concatenate_apply_piece _ _ _ (ix3 r m u) 1 (by show (1 : ℕ) < 4; omega)
        S8192x3x4 _ rfl rfl 1 rfl (ix3 r (⟨m.val - 1, by omega⟩ : Fin 3) u) ?_ ?_).trans ?_
      · intro b hb
        match b with
        | ⟨0, _⟩ => rfl
        | ⟨1, _⟩ => exact absurd rfl hb
        | ⟨2, _⟩ => rfl
      · show 1 + (m.val - 1) = m.val
        omega
      · rw [piece1_apply]
    · rw [dif_neg h1]
      by_cases h2 : m.val < 9
      · rw [dif_pos h2]
        refine (concatenate_apply_piece _ _ _ (ix3 r m u) 2 (by show (2 : ℕ) < 4; omega)
          S8192x5x4 _ rfl rfl 4 rfl (ix3 r (⟨m.val - 4, by omega⟩ : Fin 5) u) ?_ ?_).trans ?_
        · intro b hb
          match b with
          | ⟨0, _⟩ => rfl
          | ⟨1, _⟩ => exact absurd rfl hb
          | ⟨2, _⟩ => rfl
        · show 4 + (m.val - 4) = m.val
          omega
        · rw [piece2_apply]
      · rw [dif_neg h2]
        refine (concatenate_apply_piece _ _ _ (ix3 r m u) 3 (by show (3 : ℕ) < 4; omega)
          S8192x7x4 _ rfl rfl 9 rfl (ix3 r (⟨m.val - 9, by have := m.isLt; omega⟩ : Fin 7) u) ?_ ?_).trans ?_
        · intro b hb
          match b with
          | ⟨0, _⟩ => rfl
          | ⟨1, _⟩ => exact absurd rfl hb
          | ⟨2, _⟩ => rfl
        · show 9 + (m.val - 9) = m.val
          omega
        · rw [piece3_apply]

end Cert.KernelIdeal.BlockValue

end
-- ==== Proof.KernelArr.lean ====
/-
  From the body's stored value to the program's result.

  The grid has 32 × 4 points; point t = (b, j) loads points 8192 j … 8192 j + 8191 of batch b (window 0, a [1, 8192, 3]
  block) and the five weight arrays whole, and writes back the [1, 8192, 64] block at the same place of the
  [32, 32768, 64] result array (window 6).  The body stores `block` of what it loaded, whose entry (0, r, 4 m + u) is entry
  (m, u) of the factored row of point r of the block (`block_apply`), so what point t writes back is block t of `Gflat`
  of the argument arrays.  The 128 blocks tile the result array, which therefore ends holding `Gflat`; the one host
  operation after the region reshapes [32, 32768, 64] to [32, 32768, 16, 4], and entry (b, n, m, u) of the reshaped
  array is entry (b, n, 4 m + u) of the flat one: the program's result is `G` of its arguments.
-/
import proofs.«129319_j8839042695322_1_alg».proof.Proof.Gen.KernelIdeal.Frame
import proofs.«129319_j8839042695322_1_alg».proof.Proof.KernelRow
import Idealize.ShloMosaic.Lib.Pipeline.Value
import Idealize.ShloMosaic.Lib.StableHlo.Run
import Idealize.ShloMosaic.Lib.ValueIdx

set_option maxRecDepth 16384

noncomputable section

namespace Cert.KernelIdeal.ArrayValue

open Idealize.ShloMosaic Idealize.ShloMosaic.TcCoe Idealize.ShloMosaic.ValueIdx Idealize.ShloMosaic.StableHlo
open Idealize.SL Idealize.SL.Sem
open Idealize.ShloMosaic.Pipeline (Dat Cfg Window)
open Cert.KernelIdeal Cert.KernelIdeal.Gen Cert.KernelIdeal.BlockValue Cert.Harmonics

variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-- The output buffer after the body holds the body's one stored value, every load a whole buffer. -/
theorem out_eq_block (x0 : Vec Ideal S1x8192x3 .f32) (x1 : Vec Ideal S2x4 .f32) (x2 : Vec Ideal S4 .f32) (x3 : Vec Ideal S2x4 .f32)
    (x4 x5 : Vec Ideal S1x4 .f32) : out0_6 (F := Ideal) x0 x1 x2 x3 x4 x5 = block x0 x1 x2 x3 x4 x5 := by
  unfold out0_6
  rw [View.canon_unit_zero hz3]
  simp only [View.ld_unit_zero (S := S1x8192x3) hz3, View.ld_unit_zero (S := S2x4) hz2, View.ld_unit_zero (S := S4) hz1,
    View.ld_unit_zero (S := S1x4) hz2]
  rfl

/-! ## The index maps, decided once over the 128 grid points -/

/-- The points' block moves with the result's block on the batch and point axes and is the whole coordinate axis; the
    result's block is the whole lane axis; the weight windows never move. -/
theorem idx_facts : ∀ t : Fin cfg0.N,
    win0_0.index t (0 : Fin 3) = win0_6.index t (0 : Fin 3) ∧ win0_0.index t (1 : Fin 3) = win0_6.index t (1 : Fin 3)
    ∧ win0_0.index t (2 : Fin 3) = 0 ∧ win0_6.index t (2 : Fin 3) = 0
    ∧ win0_6.index t (0 : Fin 3) ≤ 31 ∧ win0_6.index t (1 : Fin 3) ≤ 3
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0 :=
  (by decide +kernel : ∀ t : Fin grid0.N, _)

/-- Every (batch, quarter) pair is some point's result block. -/
theorem idx_onto : ∀ (q0 : Fin 32) (q1 : Fin 4), ∃ t : Fin cfg0.N, win0_6.index t = ![q0.val, q1.val, 0] :=
  (by decide +kernel : ∀ (q0 : Fin 32) (q1 : Fin 4), ∃ t : Fin grid0.N, win0_6.index t = ![q0.val, q1.val, 0])

/-! ## The input blocks at a point -/

/-- The weight windows' blocks are the whole arrays. -/
theorem wblk1 (c : Dev nD) (t : Fin cfg0.N) : (iblk m c 1 t : Vec Ideal S2x4 .f32) = V m c main_arg1 := by
  obtain ⟨-, -, -, -, -, -, e0, e1, -⟩ := idx_facts t
  funext y
  show V m c main_arg1 (((cfg0.win 1).blk t).view.emb y) = V m c main_arg1 y
  refine congrArg _ (funext fun a => Fin.ext ?_)
  match a with
  | ⟨0, _⟩ => show win0_1.index t (0 : Fin 2) * 2 + 1 * (y 0).val = (y 0).val; omega
  | ⟨1, _⟩ => show win0_1.index t (1 : Fin 2) * 4 + 1 * (y 1).val = (y 1).val; omega
theorem wblk2 (c : Dev nD) (t : Fin cfg0.N) : (iblk m c 2 t : Vec Ideal S4 .f32) = V m c main_arg2 := by
  obtain ⟨-, -, -, -, -, -, -, -, e0, -⟩ := idx_facts t
  funext y
  show V m c main_arg2 (((cfg0.win 2).blk t).view.emb y) = V m c main_arg2 y
  refine congrArg _ (funext fun a => Fin.ext ?_)
  match a with
  | ⟨0, _⟩ => show win0_2.index t (0 : Fin 1) * 4 + 1 * (y 0).val = (y 0).val; omega
theorem wblk3 (c : Dev nD) (t : Fin cfg0.N) : (iblk m c 3 t : Vec Ideal S2x4 .f32) = V m c main_arg3 := by
  obtain ⟨-, -, -, -, -, -, -, -, -, e0, e1, -⟩ := idx_facts t
  funext y
  show V m c main_arg3 (((cfg0.win 3).blk t).view.emb y) = V m c main_arg3 y
  refine congrArg _ (funext fun a => Fin.ext ?_)
  match a with
  | ⟨0, _⟩ => show win0_3.index t (0 : Fin 2) * 2 + 1 * (y 0).val = (y 0).val; omega
  | ⟨1, _⟩ => show win0_3.index t (1 : Fin 2) * 4 + 1 * (y 1).val = (y 1).val; omega
theorem wblk4 (c : Dev nD) (t : Fin cfg0.N) : (iblk m c 4 t : Vec Ideal S1x4 .f32) = V m c main_arg4 := by
  obtain ⟨-, -, -, -, -, -, -, -, -, -, -, e0, e1, -⟩ := idx_facts t
  funext y
  show V m c main_arg4 (((cfg0.win 4).blk t).view.emb y) = V m c main_arg4 y
  refine congrArg _ (funext fun a => Fin.ext ?_)
  match a with
  | ⟨0, _⟩ => show win0_4.index t (0 : Fin 2) * 1 + 1 * (y 0).val = (y 0).val; omega
  | ⟨1, _⟩ => show win0_4.index t (1 : Fin 2) * 4 + 1 * (y 1).val = (y 1).val; omega
theorem wblk5 (c : Dev nD) (t : Fin cfg0.N) : (iblk m c 5 t : Vec Ideal S1x4 .f32) = V m c main_arg5 := by
  obtain ⟨-, -, -, -, -, -, -, -, -, -, -, -, -, e0, e1⟩ := idx_facts t
  funext y
  show V m c main_arg5 (((cfg0.win 5).blk t).view.emb y) = V m c main_arg5 y
  refine congrArg _ (funext fun a => Fin.ext ?_)
  match a with
  | ⟨0, _⟩ => show win0_5.index t (0 : Fin 2) * 1 + 1 * (y 0).val = (y 0).val; omega
  | ⟨1, _⟩ => show win0_5.index t (1 : Fin 2) * 4 + 1 * (y 1).val = (y 1).val; omega

/-- Entry (0, r, k) of the points' block at point t is coordinate k of the point the result's block has in row r. -/
theorem xblk_apply (c : Dev nD) (t : Fin cfg0.N) (j : S1x8192x64.Idx) (k : Fin 3) :
    (iblk m c 0 t : Vec Ideal S1x8192x3 .f32) (ix3 (0 : Fin 1) ⟨(j 1).val, (j 1).isLt⟩ k)
      = V m c main_arg0 (ix3 ⟨(((cfg0.win 6).blk t).view.emb j 0).val, (((cfg0.win 6).blk t).view.emb j 0).isLt⟩
          ⟨(((cfg0.win 6).blk t).view.emb j 1).val, (((cfg0.win 6).blk t).view.emb j 1).isLt⟩ k) := by
  obtain ⟨e0, e1, e2, -⟩ := idx_facts t
  show V m c main_arg0 (((cfg0.win 0).blk t).view.emb (ix3 (0 : Fin 1) ⟨(j 1).val, (j 1).isLt⟩ k)) = _
  refine congrArg _ (funext fun a => Fin.ext ?_)
  have hj0 : (j 0).val = 0 := by have := (j 0).isLt; change (j 0).val < 1 at this; omega
  match a with
  | ⟨0, _⟩ => show win0_0.index t (0 : Fin 3) * 1 + 1 * 0 = win0_6.index t (0 : Fin 3) * 1 + 1 * (j 0).val; omega
  | ⟨1, _⟩ => show win0_0.index t (1 : Fin 3) * 8192 + 1 * (j 1).val = win0_6.index t (1 : Fin 3) * 8192 + 1 * (j 1).val; omega
  | ⟨2, _⟩ => show win0_0.index t (2 : Fin 3) * 3 + 1 * k.val = k.val; omega

/-! ## What a point writes back -/

/-- The stored value at any entry of the block, by the entry's row and lane. -/
theorem block_entry (x0 : Vec Ideal S1x8192x3 .f32) (w0 : Vec Ideal S2x4 .f32) (b0 : Vec Ideal S4 .f32) (w1 : Vec Ideal S2x4 .f32)
    (w2 w3 : Vec Ideal S1x4 .f32) (j : S1x8192x64.Idx) :
    block x0 w0 b0 w1 w2 w3 j
      = row ⟨(j 2).val / 4, by have := (j 2).isLt; change (j 2).val < 64 at this; omega⟩ ⟨(j 2).val % 4, Nat.mod_lt _ (by decide)⟩
          (x0 (ix3 (0 : Fin 1) ⟨(j 1).val, (j 1).isLt⟩ (0 : Fin 3))) (x0 (ix3 (0 : Fin 1) ⟨(j 1).val, (j 1).isLt⟩ (1 : Fin 3)))
          (x0 (ix3 (0 : Fin 1) ⟨(j 1).val, (j 1).isLt⟩ (2 : Fin 3))) w0 b0 w1 w2 w3 := by
  have hj : j = ix3 (0 : Fin 1) ⟨(j 1).val, (j 1).isLt⟩ ⟨(j 2).val, (j 2).isLt⟩ := by
    funext a; apply Fin.ext
    match a with
    | ⟨0, _⟩ => show (j 0).val = 0; have := (j 0).isLt; change (j 0).val < 1 at this; omega
    | ⟨1, _⟩ => rfl
    | ⟨2, _⟩ => rfl
  conv_lhs => rw [hj]
  exact block_apply x0 w0 b0 w1 w2 w3 ⟨(j 1).val, (j 1).isLt⟩ _ _ ⟨(j 2).val, (j 2).isLt⟩ (by show (j 2).val = 4 * ((j 2).val / 4) + (j 2).val % 4; omega)

/-- WHAT POINT t WRITES BACK is block t of `Gflat` of the argument arrays. -/
theorem flushed_eq (c : Dev nD) (t : Fin cfg0.N) :
    (dats m 0 c).flushed 6 t = ((cfg0.win 6).blk t).view.read (Elt Ideal)
      (Gflat (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))) := by
  show (cfg0.win 6).cut (grid0.coords t) ((dats m 0 c).after 6 t) = _
  rw [after0_6, out_eq_block, wblk1, wblk2, wblk3, wblk4, wblk5]
  obtain ⟨-, -, -, e3, -⟩ := idx_facts t
  funext j
  show block (iblk m c 0 t) (V m c main_arg1) (V m c main_arg2) (V m c main_arg3) (V m c main_arg4) (V m c main_arg5) j
    = Gflat (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (((cfg0.win 6).blk t).view.emb j)
  rw [block_entry, xblk_apply m c t j 0, xblk_apply m c t j 1, xblk_apply m c t j 2]
  have h2 : (((cfg0.win 6).blk t).view.emb j 2).val = (j 2).val := by
    show win0_6.index t (2 : Fin 3) * 64 + 1 * (j 2).val = (j 2).val; omega
  unfold Gflat
  simp only [h2]
  rfl

/-! ## The result array after the region -/

/-- An index of the result array is in point t's block iff each coordinate is in the block's range on its axis. -/
theorem mem_blk (t : Fin cfg0.N) (i : S32x32768x64.Idx) :
    i ∈ ((cfg0.win 6).blk t).view.set ↔ ∀ a : Fin 3, win0_6.index t a * S1x8192x64.size a ≤ (i a).val ∧ (i a).val < win0_6.index t a * S1x8192x64.size a + S1x8192x64.size a := by
  show i ∈ ((View.whole main_v0).slice (win0_6.rect t)).set ↔ _
  rw [View.set_slice_whole, Rect.mem_set_unit]
  exact Iff.rfl

/-- The 128 blocks tile the array: index (b, n, q) lies in the block of the point whose result block is (b, n / 8192). -/
theorem cover (i : S32x32768x64.Idx) : ∃ t : Fin cfg0.N, (cfg0.win 6).flush t = true ∧ i ∈ ((cfg0.win 6).blk t).view.set := by
  have hi0 : (i 0).val < 32 := (i 0).isLt
  have hi1 : (i 1).val < 32768 := (i 1).isLt
  have hi2 : (i 2).val < 64 := (i 2).isLt
  obtain ⟨t, ht⟩ := idx_onto ⟨(i 0).val, hi0⟩ ⟨(i 1).val / 8192, by omega⟩
  have q0 : win0_6.index t (0 : Fin 3) = (i 0).val := congrFun ht 0
  have q1 : win0_6.index t (1 : Fin 3) = (i 1).val / 8192 := congrFun ht 1
  have q2 : win0_6.index t (2 : Fin 3) = 0 := congrFun ht 2
  refine ⟨t, flush0_6 t, ?_⟩
  rw [mem_blk]
  intro a
  match a with
  | ⟨0, _⟩ => show win0_6.index t (0 : Fin 3) * 1 ≤ (i 0).val ∧ (i 0).val < win0_6.index t (0 : Fin 3) * 1 + 1; omega
  | ⟨1, _⟩ => show win0_6.index t (1 : Fin 3) * 8192 ≤ (i 1).val ∧ (i 1).val < win0_6.index t (1 : Fin 3) * 8192 + 8192; omega
  | ⟨2, _⟩ => show win0_6.index t (2 : Fin 3) * 64 ≤ (i 2).val ∧ (i 2).val < win0_6.index t (2 : Fin 3) * 64 + 64; omega

/-- THE RESULT ARRAY after the region is `Gflat` of the argument arrays. -/
theorem final (c : Dev nD) : (dats m 0 c).arrAt 6 cfg0.N = Gflat (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (dats m 0 c).arrAt_eq_of_cover 6 _ (fun t _ => flushed_eq m c t) cover

/-! ## The reshape after the region, and the run -/

/-- Entry (b, n, m, u) of the reshaped array is entry (b, n, 4 m + u) of the flat one. -/
theorem G_of_Gflat (X : Pts) (W0 : W24) (b0 : B4) (W1 : W24) (W2 W3 : W14)
    (h : S32x32768x64.ShapeCasts S32x32768x16x4) :
    shapeCast S32x32768x16x4 (Gflat X W0 b0 W1 W2 W3) h = G X W0 b0 W1 W2 W3 := by
  funext i
  have hi2 : (i 2).val < 16 := (i 2).isLt
  have hi3 : (i 3).val < 4 := (i 3).isLt
  have hi1 : (i 1).val < 32768 := (i 1).isLt
  have hi0 : (i 0).val < 32 := (i 0).isLt
  refine (shapeCast_apply (Gflat X W0 b0 W1 W2 W3) h i
    (ix3 ⟨(i 0).val, hi0⟩ ⟨(i 1).val, hi1⟩ ⟨4 * (i 2).val + (i 3).val, by omega⟩) ?_).trans ?_
  · rw [Shape.rowMajor_val_three, Shape.rowMajor_val_four]
    show ((i 0).val * 32768 + (i 1).val) * 64 + (4 * (i 2).val + (i 3).val) = (((i 0).val * 32768 + (i 1).val) * 16 + (i 2).val) * 4 + (i 3).val
    omega
  · unfold Gflat G
    have e1 : (4 * (i 2).val + (i 3).val) / 4 = (i 2).val := by omega
    have e2 : (4 * (i 2).val + (i 3).val) % 4 = (i 3).val := by omega
    show row ⟨(4 * (i 2).val + (i 3).val) / 4, _⟩ ⟨(4 * (i 2).val + (i 3).val) % 4, _⟩ _ _ _ W0 b0 W1 W2 W3 = row ⟨(i 2).val, _⟩ ⟨(i 3).val, _⟩ _ _ _ W0 b0 W1 W2 W3
    simp only [e1, e2]

/-- The program's result buffer after the host operation that follows the region: `G` of the argument arrays. -/
theorem result_eq (c : Dev nD) :
    Pipeline.afterTail₀ cfgs (dats m) 0 (V0 m) [hostOps1] c main_v1 = G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  unfold Pipeline.afterTail₀
  show StableHlo.after hostOps1 _ (Proc.devRef .tc main_v1) = _
  after_results
  have hw := (Pipeline.withArrays_arr spec0 launch0.win.arr_inj c (V0 m c) (fun w => (dats m 0 c).arrAt w cfg0.N) 6).trans (final m c)
  show shapeCast S32x32768x16x4 (Pipeline.withArrays spec0 c (V0 m c) (fun w => (dats m 0 c).arrAt w cfg0.N) (Proc.devRef .tc main_v0))
    shapeCasts_S32x32768x64_S32x32768x16x4 = _
  rw [hw]
  exact G_of_Gflat _ _ _ _ _ _ _

/-- The result buffer is unscoped and is no window's array, so the run's post speaks of it. -/
theorem result_rest : main_v1 ∈ Pipeline.restRefs sig (cfgs 0).spec :=
  Pipeline.mem_restRefs_of main_v1 rfl (fun w => by fin_cases w <;> decide)

/-- THE RUN: every weakly fair execution ends with the result buffer at `G` of the argument arrays and the arguments
    as they were. -/
theorem run : θ_run defs (onTc (τ := τ) (main (F := Ideal))) ⟨m, fun _ => 0, ρ⟩ fun r => ∀ c : Dev nD,
      r.2.mem ((c : Thread nD τ).loc main_v1) = G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨((h c).2 main_v1 result_rest).trans (result_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c)))⟩)
    (run_main m ρ)

end Cert.KernelIdeal.ArrayValue

end
-- ==== Proof.RefDeg.lean ====
/-
  The reference's harmonics, entry by entry.

  For all points at once the reference slices the three coordinate planes, squares them, sums the squares along the last
  axis (a sum started at zero), and builds each degree's harmonics as planes joined along the last axis.  Read at point
  (b, n) (and harmonic k) these are 0 + (px² + py² + pz²) and `Cert.Harmonics.deg1`, `deg2`, `deg3` of the point's
  coordinates; the degree-0 harmonic is the constant c0 · 1 everywhere.
-/
import proofs.«129319_j8839042695322_1_alg».proof.Proof.Gen.ReferenceIdeal.Read
import proofs.«129319_j8839042695322_1_alg».proof.Proof.Spec
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

set_option maxRecDepth 16384

noncomputable section

namespace Cert.ReferenceIdeal.RowValue

open Idealize.ShloMosaic Idealize.ShloMosaic.ValueIdx Idealize.SL.Sem
open Cert.ReferenceIdeal Cert.ReferenceIdeal.Gen Cert.ReferenceIdeal.Read Cert.Harmonics

/-- The array of points as the reference holds it. -/
abbrev PtsR : Type := (⟨S32x32768x3, .f32⟩ : BufTy).Contents (Elt Ideal)

/-! ## The coordinate planes

  Each plane is a slice of the array of points along the last axis, of extent one there, read as a [32, 32768] array:
  entry (b, n) of the plane sits at row-major position 32768 b + n of the slice, which is its entry (b, n, 0), and that
  is entry (b, n, c) of the array of points for the plane's coordinate c. -/

/-- The first coordinate plane at point (b, n) is the point's first coordinate. -/
private theorem px_apply (X : PtsR) (b : Fin 32) (n : Fin 32768) :
    val_main_v3 (F := Ideal) X (ix2 b n) = X (ix3 b n (0 : Fin 3)) := by
  rw [val_main_v3_apply, val_main_v2_apply]
  refine congrArg X (funext fun a => ?_)
  have hb := b.isLt
  have hn := n.isLt
  match a with
  | ⟨0, _⟩ => exact Fin.ext (by show (b.val * 32768 + n.val) / 32768 = b.val; omega)
  | ⟨1, _⟩ => exact Fin.ext (by show (b.val * 32768 + n.val) / 1 % 32768 = n.val; omega)
  | ⟨2, _⟩ => exact Fin.ext (by show (0 : Nat) = 0; rfl)

/-- The second coordinate plane at point (b, n) is the point's second coordinate. -/
private theorem py_apply (X : PtsR) (b : Fin 32) (n : Fin 32768) :
    val_main_v5 (F := Ideal) X (ix2 b n) = X (ix3 b n (1 : Fin 3)) := by
  rw [val_main_v5_apply, val_main_v4_apply]
  refine congrArg X (funext fun a => ?_)
  have hb := b.isLt
  have hn := n.isLt
  match a with
  | ⟨0, _⟩ => exact Fin.ext (by show (b.val * 32768 + n.val) / 32768 = b.val; omega)
  | ⟨1, _⟩ => exact Fin.ext (by show (b.val * 32768 + n.val) / 1 % 32768 = n.val; omega)
  | ⟨2, _⟩ => exact Fin.ext (by show (1 + 0 : Nat) = 1; rfl)

/-- The third coordinate plane at point (b, n) is the point's third coordinate. -/
private theorem pz_apply (X : PtsR) (b : Fin 32) (n : Fin 32768) :
    val_main_v7 (F := Ideal) X (ix2 b n) = X (ix3 b n (2 : Fin 3)) := by
  rw [val_main_v7_apply, val_main_v6_apply]
  refine congrArg X (funext fun a => ?_)
  have hb := b.isLt
  have hn := n.isLt
  match a with
  | ⟨0, _⟩ => exact Fin.ext (by show (b.val * 32768 + n.val) / 32768 = b.val; omega)
  | ⟨1, _⟩ => exact Fin.ext (by show (b.val * 32768 + n.val) / 1 % 32768 = n.val; omega)
  | ⟨2, _⟩ => exact Fin.ext (by show (2 + 0 : Nat) = 2; rfl)

/-- The squared norm of point (b, n): the sum of the three squares, started at zero. -/
theorem normSq_apply (X : PtsR) (b : Fin 32) (n : Fin 32768) :
    val_main_v1 (F := Ideal) X (ix2 b n)
      = 0 + (X (ix3 b n (0 : Fin 3)) * X (ix3 b n (0 : Fin 3)) + X (ix3 b n (1 : Fin 3)) * X (ix3 b n (1 : Fin 3))
              + X (ix3 b n (2 : Fin 3)) * X (ix3 b n (2 : Fin 3))) := by
  -- the k-th summand is read at (b, n, k)
  have e : ∀ k : Fin 3, idx_main_v1 (ix2 b n) k = ix3 b n k := fun k => funext fun a =>
    match a with
    | ⟨0, _⟩ => rfl
    | ⟨1, _⟩ => rfl
    | ⟨2, _⟩ => rfl
  rw [val_main_v1_apply, Fin.sum_univ_three, val_main_cst_apply, e, e, e]
  simp only [val_main_v0_apply, Ideal.mulf_def, Ideal.ofBits_def, Ideal.ofBits_zero_f32]

/-- The degree-0 harmonic: the constant times one, at every point. -/
theorem deg0_apply (b : Fin 32) (n : Fin 32768) : val_main_v13 (F := Ideal) (ix3 b n (0 : Fin 1)) = c0 * 1 := by
  rw [val_main_v13_apply, val_main_v12_apply, val_main_v11_apply, val_main_cst_1_apply, val_main_cst_0_apply]
  simp only [Ideal.mulf_def, Ideal.ofBits_def, Ideal.ofBits_one_f32]

/-! ## A plane as a [32, 32768, 1] array, and the planes joined along the last axis

  A [32, 32768] plane spread to [32, 32768, 1] has at (b, n, 0) the plane's entry (b, n).  Joining pieces of extent one
  along the last axis puts piece k at last coordinate k: the extents before it sum to k, and within the piece the last
  coordinate is 0. -/

/-- A rank-2 index with coordinates b and n is (b, n). -/
private theorem idx2_eq (j : S32x32768.Idx) (b : Fin 32) (n : Fin 32768) (h0 : j 0 = b) (h1 : j 1 = n) : j = ix2 b n :=
  funext fun a => match a with | ⟨0, _⟩ => h0 | ⟨1, _⟩ => h1

private theorem b14 (X : PtsR) (b : Fin 32) (n : Fin 32768) :
    val_main_v14 (F := Ideal) X (ix3 b n (0 : Fin 1)) = val_main_v5 (F := Ideal) X (ix2 b n) := by
  rw [val_main_v14_apply]; exact congrArg _ (idx2_eq _ b n rfl rfl)
private theorem b15 (X : PtsR) (b : Fin 32) (n : Fin 32768) :
    val_main_v15 (F := Ideal) X (ix3 b n (0 : Fin 1)) = val_main_v7 (F := Ideal) X (ix2 b n) := by
  rw [val_main_v15_apply]; exact congrArg _ (idx2_eq _ b n rfl rfl)
private theorem b16 (X : PtsR) (b : Fin 32) (n : Fin 32768) :
    val_main_v16 (F := Ideal) X (ix3 b n (0 : Fin 1)) = val_main_v3 (F := Ideal) X (ix2 b n) := by
  rw [val_main_v16_apply]; exact congrArg _ (idx2_eq _ b n rfl rfl)

private theorem cat17_0 (X : PtsR) (b : Fin 32) (n : Fin 32768) (h : 0 < 3) :
    val_main_v17 (F := Ideal) X (ix3 b n (⟨0, h⟩ : Fin 3)) = val_main_v14 (F := Ideal) X (ix3 b n (0 : Fin 1)) := by
  unfold val_main_v17
  exact concatenate_apply_piece _ _ _ (ix3 b n (⟨0, h⟩ : Fin 3)) 0 (by show (0 : Nat) < 3; omega) S32x32768x1
    (val_main_v14 (F := Ideal) X) rfl rfl 0 rfl (ix3 b n (0 : Fin 1))
    (fun c hc => match c with | ⟨0, _⟩ => rfl | ⟨1, _⟩ => rfl | ⟨2, _⟩ => absurd rfl hc) rfl
private theorem cat17_1 (X : PtsR) (b : Fin 32) (n : Fin 32768) (h : 1 < 3) :
    val_main_v17 (F := Ideal) X (ix3 b n (⟨1, h⟩ : Fin 3)) = val_main_v15 (F := Ideal) X (ix3 b n (0 : Fin 1)) := by
  unfold val_main_v17
  exact concatenate_apply_piece _ _ _ (ix3 b n (⟨1, h⟩ : Fin 3)) 1 (by show (1 : Nat) < 3; omega) S32x32768x1
    (val_main_v15 (F := Ideal) X) rfl rfl 1 rfl (ix3 b n (0 : Fin 1))
    (fun c hc => match c with | ⟨0, _⟩ => rfl | ⟨1, _⟩ => rfl | ⟨2, _⟩ => absurd rfl hc) rfl
private theorem cat17_2 (X : PtsR) (b : Fin 32) (n : Fin 32768) (h : 2 < 3) :
    val_main_v17 (F := Ideal) X (ix3 b n (⟨2, h⟩ : Fin 3)) = val_main_v16 (F := Ideal) X (ix3 b n (0 : Fin 1)) := by
  unfold val_main_v17
  exact concatenate_apply_piece _ _ _ (ix3 b n (⟨2, h⟩ : Fin 3)) 2 (by show (2 : Nat) < 3; omega) S32x32768x1
    (val_main_v16 (F := Ideal) X) rfl rfl 2 rfl (ix3 b n (0 : Fin 1))
    (fun c hc => match c with | ⟨0, _⟩ => rfl | ⟨1, _⟩ => rfl | ⟨2, _⟩ => absurd rfl hc) rfl

/-- Harmonic k of degree 1 at point (b, n). -/
theorem deg1_apply (X : PtsR) (b : Fin 32) (n : Fin 32768) (k : Fin 3) :
    val_main_v19 (F := Ideal) X (ix3 b n k) = deg1 k (X (ix3 b n (0 : Fin 3))) (X (ix3 b n (1 : Fin 3))) (X (ix3 b n (2 : Fin 3))) := by
  rw [val_main_v19_apply, val_main_v18_apply, val_main_cst_2_apply]
  match k with
  | ⟨0, _⟩ => rw [cat17_0, b14, py_apply]; rfl
  | ⟨1, _⟩ => rw [cat17_1, b15, pz_apply]; rfl
  | ⟨2, _⟩ => rw [cat17_2, b16, px_apply]; rfl

/-! ## Degree 2

  Each harmonic is built on the planes entry by entry, with the constants spread over the plane; read at (b, n) it is the
  same expression in the point's coordinates, constant for constant and grouping for grouping. -/

/-- The xy harmonic at point (b, n). -/
private theorem e22 (X : PtsR) (b : Fin 32) (n : Fin 32768) :
    val_main_v22 (F := Ideal) X (ix2 b n) = c2xy * X (ix3 b n (0 : Fin 3)) * X (ix3 b n (1 : Fin 3)) := by
  simp only [val_main_v22_apply, val_main_v21_apply, val_main_v20_apply, val_main_cst_3_apply, px_apply, py_apply, pz_apply,
    Ideal.mulf_def, Ideal.subf_def, Ideal.ofBits_def]

/-- The yz harmonic at point (b, n). -/
private theorem e25 (X : PtsR) (b : Fin 32) (n : Fin 32768) :
    val_main_v25 (F := Ideal) X (ix2 b n) = c2xy * X (ix3 b n (1 : Fin 3)) * X (ix3 b n (2 : Fin 3)) := by
  simp only [val_main_v25_apply, val_main_v24_apply, val_main_v23_apply, val_main_cst_4_apply, px_apply, py_apply, pz_apply,
    Ideal.mulf_def, Ideal.subf_def, Ideal.ofBits_def]

/-- The 2z² − x² − y² harmonic at point (b, n). -/
private theorem e31 (X : PtsR) (b : Fin 32) (n : Fin 32768) :
    val_main_v31 (F := Ideal) X (ix2 b n) = c20 * (two * (X (ix3 b n (2 : Fin 3)) * X (ix3 b n (2 : Fin 3))) - X (ix3 b n (0 : Fin 3)) * X (ix3 b n (0 : Fin 3)) - X (ix3 b n (1 : Fin 3)) * X (ix3 b n (1 : Fin 3))) := by
  simp only [val_main_v31_apply, val_main_v30_apply, val_main_cst_6_apply, val_main_v29_apply, val_main_v28_apply, val_main_v27_apply, val_main_v26_apply, val_main_cst_5_apply, val_main_v10_apply, val_main_v8_apply, val_main_v9_apply, px_apply, py_apply, pz_apply,
    Ideal.mulf_def, Ideal.subf_def, Ideal.ofBits_def]

/-- The xz harmonic at point (b, n). -/
private theorem e34 (X : PtsR) (b : Fin 32) (n : Fin 32768) :
    val_main_v34 (F := Ideal) X (ix2 b n) = c2xy * X (ix3 b n (0 : Fin 3)) * X (ix3 b n (2 : Fin 3)) := by
  simp only [val_main_v34_apply, val_main_v33_apply, val_main_v32_apply, val_main_cst_7_apply, px_apply, py_apply, pz_apply,
    Ideal.mulf_def, Ideal.subf_def, Ideal.ofBits_def]

/-- The x² − y² harmonic at point (b, n). -/
private theorem e37 (X : PtsR) (b : Fin 32) (n : Fin 32768) :
    val_main_v37 (F := Ideal) X (ix2 b n) = c22 * (X (ix3 b n (0 : Fin 3)) * X (ix3 b n (0 : Fin 3)) - X (ix3 b n (1 : Fin 3)) * X (ix3 b n (1 : Fin 3))) := by
  simp only [val_main_v37_apply, val_main_v36_apply, val_main_cst_8_apply, val_main_v35_apply, val_main_v8_apply, val_main_v9_apply, px_apply, py_apply, pz_apply,
    Ideal.mulf_def, Ideal.subf_def, Ideal.ofBits_def]

private theorem b38 (X : PtsR) (b : Fin 32) (n : Fin 32768) :
    val_main_v38 (F := Ideal) X (ix3 b n (0 : Fin 1)) = val_main_v22 (F := Ideal) X (ix2 b n) := by
  rw [val_main_v38_apply]; exact congrArg _ (idx2_eq _ b n rfl rfl)
private theorem b39 (X : PtsR) (b : Fin 32) (n : Fin 32768) :
    val_main_v39 (F := Ideal) X (ix3 b n (0 : Fin 1)) = val_main_v25 (F := Ideal) X (ix2 b n) := by
  rw [val_main_v39_apply]; exact congrArg _ (idx2_eq _ b n rfl rfl)
private theorem b40 (X : PtsR) (b : Fin 32) (n : Fin 32768) :
    val_main_v40 (F := Ideal) X (ix3 b n (0 : Fin 1)) = val_main_v31 (F := Ideal) X (ix2 b n) := by
  rw [val_main_v40_apply]; exact congrArg _ (idx2_eq _ b n rfl rfl)
private theorem b41 (X : PtsR) (b : Fin 32) (n : Fin 32768) :
    val_main_v41 (F := Ideal) X (ix3 b n (0 : Fin 1)) = val_main_v34 (F := Ideal) X (ix2 b n) := by
  rw [val_main_v41_apply]; exact congrArg _ (idx2_eq _ b n rfl rfl)
private theorem b42 (X : PtsR) (b : Fin 32) (n : Fin 32768) :
    val_main_v42 (F := Ideal) X (ix3 b n (0 : Fin 1)) = val_main_v37 (F := Ideal) X (ix2 b n) := by
  rw [val_main_v42_apply]; exact congrArg _ (idx2_eq _ b n rfl rfl)

private theorem cat43_0 (X : PtsR) (b : Fin 32) (n : Fin 32768) (h : 0 < 5) :
    val_main_v43 (F := Ideal) X (ix3 b n (⟨0, h⟩ : Fin 5)) = val_main_v38 (F := Ideal) X (ix3 b n (0 : Fin 1)) := by
  unfold val_main_v43
  exact concatenate_apply_piece _ _ _ (ix3 b n (⟨0, h⟩ : Fin 5)) 0 (by show (0 : Nat) < 5; omega) S32x32768x1
    (val_main_v38 (F := Ideal) X) rfl rfl 0 rfl (ix3 b n (0 : Fin 1))
    (fun c hc => match c with | ⟨0, _⟩ => rfl | ⟨1, _⟩ => rfl | ⟨2, _⟩ => absurd rfl hc) rfl
private theorem cat43_1 (X : PtsR) (b : Fin 32) (n : Fin 32768) (h : 1 < 5) :
    val_main_v43 (F := Ideal) X (ix3 b n (⟨1, h⟩ : Fin 5)) = val_main_v39 (F := Ideal) X (ix3 b n (0 : Fin 1)) := by
  unfold val_main_v43
  exact concatenate_apply_piece _ _ _ (ix3 b n (⟨1, h⟩ : Fin 5)) 1 (by show (1 : Nat) < 5; omega) S32x32768x1
    (val_main_v39 (F := Ideal) X) rfl rfl 1 rfl (ix3 b n (0 : Fin 1))
    (fun c hc => match c with | ⟨0, _⟩ => rfl | ⟨1, _⟩ => rfl | ⟨2, _⟩ => absurd rfl hc) rfl
private theorem cat43_2 (X : PtsR) (b : Fin 32) (n : Fin 32768) (h : 2 < 5) :
    val_main_v43 (F := Ideal) X (ix3 b n (⟨2, h⟩ : Fin 5)) = val_main_v40 (F := Ideal) X (ix3 b n (0 : Fin 1)) := by
  unfold val_main_v43
  exact concatenate_apply_piece _ _ _ (ix3 b n (⟨2, h⟩ : Fin 5)) 2 (by show (2 : Nat) < 5; omega) S32x32768x1
    (val_main_v40 (F := Ideal) X) rfl rfl 2 rfl (ix3 b n (0 : Fin 1))
    (fun c hc => match c with | ⟨0, _⟩ => rfl | ⟨1, _⟩ => rfl | ⟨2, _⟩ => absurd rfl hc) rfl
private theorem cat43_3 (X : PtsR) (b : Fin 32) (n : Fin 32768) (h : 3 < 5) :
    val_main_v43 (F := Ideal) X (ix3 b n (⟨3, h⟩ : Fin 5)) = val_main_v41 (F := Ideal) X (ix3 b n (0 : Fin 1)) := by
  unfold val_main_v43
  exact concatenate_apply_piece _ _ _ (ix3 b n (⟨3, h⟩ : Fin 5)) 3 (by show (3 : Nat) < 5; omega) S32x32768x1
    (val_main_v41 (F := Ideal) X) rfl rfl 3 rfl (ix3 b n (0 : Fin 1))
    (fun c hc => match c with | ⟨0, _⟩ => rfl | ⟨1, _⟩ => rfl | ⟨2, _⟩ => absurd rfl hc) rfl
private theorem cat43_4 (X : PtsR) (b : Fin 32) (n : Fin 32768) (h : 4 < 5) :
    val_main_v43 (F := Ideal) X (ix3 b n (⟨4, h⟩ : Fin 5)) = val_main_v42 (F := Ideal) X (ix3 b n (0 : Fin 1)) := by
  unfold val_main_v43
  exact concatenate_apply_piece _ _ _ (ix3 b n (⟨4, h⟩ : Fin 5)) 4 (by show (4 : Nat) < 5; omega) S32x32768x1
    (val_main_v42 (F := Ideal) X) rfl rfl 4 rfl (ix3 b n (0 : Fin 1))
    (fun c hc => match c with | ⟨0, _⟩ => rfl | ⟨1, _⟩ => rfl | ⟨2, _⟩ => absurd rfl hc) rfl

/-- Harmonic k of degree 2 at point (b, n). -/
theorem deg2_apply (X : PtsR) (b : Fin 32) (n : Fin 32768) (k : Fin 5) :
    val_main_v43 (F := Ideal) X (ix3 b n k) = deg2 k (X (ix3 b n (0 : Fin 3))) (X (ix3 b n (1 : Fin 3))) (X (ix3 b n (2 : Fin 3))) := by
  match k with
  | ⟨0, _⟩ => rw [cat43_0, b38, e22]; rfl
  | ⟨1, _⟩ => rw [cat43_1, b39, e25]; rfl
  | ⟨2, _⟩ => rw [cat43_2, b40, e31]; rfl
  | ⟨3, _⟩ => rw [cat43_3, b41, e34]; rfl
  | ⟨4, _⟩ => rw [cat43_4, b42, e37]; rfl

/-! ## Degree 3 -/

/-- The y(3x² − y²) harmonic at point (b, n). -/
private theorem e49 (X : PtsR) (b : Fin 32) (n : Fin 32768) :
    val_main_v49 (F := Ideal) X (ix2 b n) = c33 * X (ix3 b n (1 : Fin 3)) * (three * (X (ix3 b n (0 : Fin 3)) * X (ix3 b n (0 : Fin 3))) - X (ix3 b n (1 : Fin 3)) * X (ix3 b n (1 : Fin 3))) := by
  simp only [val_main_v49_apply, val_main_v45_apply, val_main_v44_apply, val_main_cst_9_apply, val_main_v48_apply, val_main_v47_apply, val_main_v46_apply, val_main_cst_10_apply, val_main_v8_apply, val_main_v9_apply, px_apply, py_apply, pz_apply,
    Ideal.mulf_def, Ideal.subf_def, Ideal.ofBits_def]

/-- The xyz harmonic at point (b, n). -/
private theorem e53 (X : PtsR) (b : Fin 32) (n : Fin 32768) :
    val_main_v53 (F := Ideal) X (ix2 b n) = c32 * X (ix3 b n (0 : Fin 3)) * X (ix3 b n (1 : Fin 3)) * X (ix3 b n (2 : Fin 3)) := by
  simp only [val_main_v53_apply, val_main_v52_apply, val_main_v51_apply, val_main_v50_apply, val_main_cst_11_apply, px_apply, py_apply, pz_apply,
    Ideal.mulf_def, Ideal.subf_def, Ideal.ofBits_def]

/-- The y(4z² − x² − y²) harmonic at point (b, n). -/
private theorem e60 (X : PtsR) (b : Fin 32) (n : Fin 32768) :
    val_main_v60 (F := Ideal) X (ix2 b n) = c31 * X (ix3 b n (1 : Fin 3)) * (four * (X (ix3 b n (2 : Fin 3)) * X (ix3 b n (2 : Fin 3))) - X (ix3 b n (0 : Fin 3)) * X (ix3 b n (0 : Fin 3)) - X (ix3 b n (1 : Fin 3)) * X (ix3 b n (1 : Fin 3))) := by
  simp only [val_main_v60_apply, val_main_v55_apply, val_main_v54_apply, val_main_cst_12_apply, val_main_v59_apply, val_main_v58_apply, val_main_v57_apply, val_main_v56_apply, val_main_cst_13_apply, val_main_v10_apply, val_main_v8_apply, val_main_v9_apply, px_apply, py_apply, pz_apply,
    Ideal.mulf_def, Ideal.subf_def, Ideal.ofBits_def]

/-- The z(2z² − 3x² − 3y²) harmonic at point (b, n). -/
private theorem e71 (X : PtsR) (b : Fin 32) (n : Fin 32768) :
    val_main_v71 (F := Ideal) X (ix2 b n) = c30 * X (ix3 b n (2 : Fin 3)) * (two * (X (ix3 b n (2 : Fin 3)) * X (ix3 b n (2 : Fin 3))) - three * (X (ix3 b n (0 : Fin 3)) * X (ix3 b n (0 : Fin 3))) - three * (X (ix3 b n (1 : Fin 3)) * X (ix3 b n (1 : Fin 3)))) := by
  simp only [val_main_v71_apply, val_main_v62_apply, val_main_v61_apply, val_main_cst_14_apply, val_main_v70_apply, val_main_v67_apply, val_main_v64_apply, val_main_v63_apply, val_main_cst_15_apply, val_main_v10_apply, val_main_v66_apply, val_main_v65_apply, val_main_cst_16_apply, val_main_v8_apply, val_main_v69_apply, val_main_v68_apply, val_main_cst_17_apply, val_main_v9_apply, px_apply, py_apply, pz_apply,
    Ideal.mulf_def, Ideal.subf_def, Ideal.ofBits_def]

/-- The x(4z² − x² − y²) harmonic at point (b, n). -/
private theorem e78 (X : PtsR) (b : Fin 32) (n : Fin 32768) :
    val_main_v78 (F := Ideal) X (ix2 b n) = c31 * X (ix3 b n (0 : Fin 3)) * (four * (X (ix3 b n (2 : Fin 3)) * X (ix3 b n (2 : Fin 3))) - X (ix3 b n (0 : Fin 3)) * X (ix3 b n (0 : Fin 3)) - X (ix3 b n (1 : Fin 3)) * X (ix3 b n (1 : Fin 3))) := by
  simp only [val_main_v78_apply, val_main_v73_apply, val_main_v72_apply, val_main_cst_18_apply, val_main_v77_apply, val_main_v76_apply, val_main_v75_apply, val_main_v74_apply, val_main_cst_19_apply, val_main_v10_apply, val_main_v8_apply, val_main_v9_apply, px_apply, py_apply, pz_apply,
    Ideal.mulf_def, Ideal.subf_def, Ideal.ofBits_def]

/-- The z(x² − y²) harmonic at point (b, n). -/
private theorem e82 (X : PtsR) (b : Fin 32) (n : Fin 32768) :
    val_main_v82 (F := Ideal) X (ix2 b n) = c3p * X (ix3 b n (2 : Fin 3)) * (X (ix3 b n (0 : Fin 3)) * X (ix3 b n (0 : Fin 3)) - X (ix3 b n (1 : Fin 3)) * X (ix3 b n (1 : Fin 3))) := by
  simp only [val_main_v82_apply, val_main_v80_apply, val_main_v79_apply, val_main_cst_20_apply, val_main_v81_apply, val_main_v8_apply, val_main_v9_apply, px_apply, py_apply, pz_apply,
    Ideal.mulf_def, Ideal.subf_def, Ideal.ofBits_def]

/-- The x(x² − 3y²) harmonic at point (b, n). -/
private theorem e88 (X : PtsR) (b : Fin 32) (n : Fin 32768) :
    val_main_v88 (F := Ideal) X (ix2 b n) = c33 * X (ix3 b n (0 : Fin 3)) * (X (ix3 b n (0 : Fin 3)) * X (ix3 b n (0 : Fin 3)) - three * (X (ix3 b n (1 : Fin 3)) * X (ix3 b n (1 : Fin 3)))) := by
  simp only [val_main_v88_apply, val_main_v84_apply, val_main_v83_apply, val_main_cst_21_apply, val_main_v87_apply, val_main_v8_apply, val_main_v86_apply, val_main_v85_apply, val_main_cst_22_apply, val_main_v9_apply, px_apply, py_apply, pz_apply,
    Ideal.mulf_def, Ideal.subf_def, Ideal.ofBits_def]

private theorem b89 (X : PtsR) (b : Fin 32) (n : Fin 32768) :
    val_main_v89 (F := Ideal) X (ix3 b n (0 : Fin 1)) = val_main_v49 (F := Ideal) X (ix2 b n) := by
  rw [val_main_v89_apply]; exact congrArg _ (idx2_eq _ b n rfl rfl)
private theorem b90 (X : PtsR) (b : Fin 32) (n : Fin 32768) :
    val_main_v90 (F := Ideal) X (ix3 b n (0 : Fin 1)) = val_main_v53 (F := Ideal) X (ix2 b n) := by
  rw [val_main_v90_apply]; exact congrArg _ (idx2_eq _ b n rfl rfl)
private theorem b91 (X : PtsR) (b : Fin 32) (n : Fin 32768) :
    val_main_v91 (F := Ideal) X (ix3 b n (0 : Fin 1)) = val_main_v60 (F := Ideal) X (ix2 b n) := by
  rw [val_main_v91_apply]; exact congrArg _ (idx2_eq _ b n rfl rfl)
private theorem b92 (X : PtsR) (b : Fin 32) (n : Fin 32768) :
    val_main_v92 (F := Ideal) X (ix3 b n (0 : Fin 1)) = val_main_v71 (F := Ideal) X (ix2 b n) := by
  rw [val_main_v92_apply]; exact congrArg _ (idx2_eq _ b n rfl rfl)
private theorem b93 (X : PtsR) (b : Fin 32) (n : Fin 32768) :
    val_main_v93 (F := Ideal) X (ix3 b n (0 : Fin 1)) = val_main_v78 (F := Ideal) X (ix2 b n) := by
  rw [val_main_v93_apply]; exact congrArg _ (idx2_eq _ b n rfl rfl)
private theorem b94 (X : PtsR) (b : Fin 32) (n : Fin 32768) :
    val_main_v94 (F := Ideal) X (ix3 b n (0 : Fin 1)) = val_main_v82 (F := Ideal) X (ix2 b n) := by
  rw [val_main_v94_apply]; exact congrArg _ (idx2_eq _ b n rfl rfl)
private theorem b95 (X : PtsR) (b : Fin 32) (n : Fin 32768) :
    val_main_v95 (F := Ideal) X (ix3 b n (0 : Fin 1)) = val_main_v88 (F := Ideal) X (ix2 b n) := by
  rw [val_main_v95_apply]; exact congrArg _ (idx2_eq _ b n rfl rfl)

private theorem cat96_0 (X : PtsR) (b : Fin 32) (n : Fin 32768) (h : 0 < 7) :
    val_main_v96 (F := Ideal) X (ix3 b n (⟨0, h⟩ : Fin 7)) = val_main_v89 (F := Ideal) X (ix3 b n (0 : Fin 1)) := by
  unfold val_main_v96
  exact concatenate_apply_piece _ _ _ (ix3 b n (⟨0, h⟩ : Fin 7)) 0 (by show (0 : Nat) < 7; omega) S32x32768x1
    (val_main_v89 (F := Ideal) X) rfl rfl 0 rfl (ix3 b n (0 : Fin 1))
    (fun c hc => match c with | ⟨0, _⟩ => rfl | ⟨1, _⟩ => rfl | ⟨2, _⟩ => absurd rfl hc) rfl
private theorem cat96_1 (X : PtsR) (b : Fin 32) (n : Fin 32768) (h : 1 < 7) :
    val_main_v96 (F := Ideal) X (ix3 b n (⟨1, h⟩ : Fin 7)) = val_main_v90 (F := Ideal) X (ix3 b n (0 : Fin 1)) := by
  unfold val_main_v96
  exact concatenate_apply_piece _ _ _ (ix3 b n (⟨1, h⟩ : Fin 7)) 1 (by show (1 : Nat) < 7; omega) S32x32768x1
    (val_main_v90 (F := Ideal) X) rfl rfl 1 rfl (ix3 b n (0 : Fin 1))
    (fun c hc => match c with | ⟨0, _⟩ => rfl | ⟨1, _⟩ => rfl | ⟨2, _⟩ => absurd rfl hc) rfl
private theorem cat96_2 (X : PtsR) (b : Fin 32) (n : Fin 32768) (h : 2 < 7) :
    val_main_v96 (F := Ideal) X (ix3 b n (⟨2, h⟩ : Fin 7)) = val_main_v91 (F := Ideal) X (ix3 b n (0 : Fin 1)) := by
  unfold val_main_v96
  exact concatenate_apply_piece _ _ _ (ix3 b n (⟨2, h⟩ : Fin 7)) 2 (by show (2 : Nat) < 7; omega) S32x32768x1
    (val_main_v91 (F := Ideal) X) rfl rfl 2 rfl (ix3 b n (0 : Fin 1))
    (fun c hc => match c with | ⟨0, _⟩ => rfl | ⟨1, _⟩ => rfl | ⟨2, _⟩ => absurd rfl hc) rfl
private theorem cat96_3 (X : PtsR) (b : Fin 32) (n : Fin 32768) (h : 3 < 7) :
    val_main_v96 (F := Ideal) X (ix3 b n (⟨3, h⟩ : Fin 7)) = val_main_v92 (F := Ideal) X (ix3 b n (0 : Fin 1)) := by
  unfold val_main_v96
  exact concatenate_apply_piece _ _ _ (ix3 b n (⟨3, h⟩ : Fin 7)) 3 (by show (3 : Nat) < 7; omega) S32x32768x1
    (val_main_v92 (F := Ideal) X) rfl rfl 3 rfl (ix3 b n (0 : Fin 1))
    (fun c hc => match c with | ⟨0, _⟩ => rfl | ⟨1, _⟩ => rfl | ⟨2, _⟩ => absurd rfl hc) rfl
private theorem cat96_4 (X : PtsR) (b : Fin 32) (n : Fin 32768) (h : 4 < 7) :
    val_main_v96 (F := Ideal) X (ix3 b n (⟨4, h⟩ : Fin 7)) = val_main_v93 (F := Ideal) X (ix3 b n (0 : Fin 1)) := by
  unfold val_main_v96
  exact concatenate_apply_piece _ _ _ (ix3 b n (⟨4, h⟩ : Fin 7)) 4 (by show (4 : Nat) < 7; omega) S32x32768x1
    (val_main_v93 (F := Ideal) X) rfl rfl 4 rfl (ix3 b n (0 : Fin 1))
    (fun c hc => match c with | ⟨0, _⟩ => rfl | ⟨1, _⟩ => rfl | ⟨2, _⟩ => absurd rfl hc) rfl
private theorem cat96_5 (X : PtsR) (b : Fin 32) (n : Fin 32768) (h : 5 < 7) :
    val_main_v96 (F := Ideal) X (ix3 b n (⟨5, h⟩ : Fin 7)) = val_main_v94 (F := Ideal) X (ix3 b n (0 : Fin 1)) := by
  unfold val_main_v96
  exact concatenate_apply_piece _ _ _ (ix3 b n (⟨5, h⟩ : Fin 7)) 5 (by show (5 : Nat) < 7; omega) S32x32768x1
    (val_main_v94 (F := Ideal) X) rfl rfl 5 rfl (ix3 b n (0 : Fin 1))
    (fun c hc => match c with | ⟨0, _⟩ => rfl | ⟨1, _⟩ => rfl | ⟨2, _⟩ => absurd rfl hc) rfl
private theorem cat96_6 (X : PtsR) (b : Fin 32) (n : Fin 32768) (h : 6 < 7) :
    val_main_v96 (F := Ideal) X (ix3 b n (⟨6, h⟩ : Fin 7)) = val_main_v95 (F := Ideal) X (ix3 b n (0 : Fin 1)) := by
  unfold val_main_v96
  exact concatenate_apply_piece _ _ _ (ix3 b n (⟨6, h⟩ : Fin 7)) 6 (by show (6 : Nat) < 7; omega) S32x32768x1
    (val_main_v95 (F := Ideal) X) rfl rfl 6 rfl (ix3 b n (0 : Fin 1))
    (fun c hc => match c with | ⟨0, _⟩ => rfl | ⟨1, _⟩ => rfl | ⟨2, _⟩ => absurd rfl hc) rfl

/-- Harmonic k of degree 3 at point (b, n). -/
theorem deg3_apply (X : PtsR) (b : Fin 32) (n : Fin 32768) (k : Fin 7) :
    val_main_v96 (F := Ideal) X (ix3 b n k) = deg3 k (X (ix3 b n (0 : Fin 3))) (X (ix3 b n (1 : Fin 3))) (X (ix3 b n (2 : Fin 3))) := by
  match k with
  | ⟨0, _⟩ => rw [cat96_0, b89, e49]; rfl
  | ⟨1, _⟩ => rw [cat96_1, b90, e53]; rfl
  | ⟨2, _⟩ => rw [cat96_2, b91, e60]; rfl
  | ⟨3, _⟩ => rw [cat96_3, b92, e71]; rfl
  | ⟨4, _⟩ => rw [cat96_4, b93, e78]; rfl
  | ⟨5, _⟩ => rw [cat96_5, b94, e82]; rfl
  | ⟨6, _⟩ => rw [cat96_6, b95, e88]; rfl

end Cert.ReferenceIdeal.RowValue

end
-- ==== Proof.RefRow.lean ====
/-
  The reference's result, entry by entry.

  The reference builds, for all points at once, the harmonics of each degree (columns joined along the last axis), the
  monomials 1 · Y and |p|² · Y (joined along a new last axis), contracts that axis against the weight matrices, adds the
  bias to the degree-0 piece and joins the four pieces along the harmonic axis.  Entry (b, n, m, u) of what it returns is
  entry (m, u) of the EXPANDED row (`Cert.Harmonics.rowX`) of point (b, n).
-/
import proofs.«129319_j8839042695322_1_alg».proof.Proof.Gen.ReferenceIdeal.Read
import proofs.«129319_j8839042695322_1_alg».proof.Proof.RefDeg
import proofs.«129319_j8839042695322_1_alg».proof.Proof.Spec
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

set_option maxRecDepth 16384

noncomputable section

namespace Cert.ReferenceIdeal.RowValue

open Idealize.ShloMosaic Idealize.ShloMosaic.ValueIdx Idealize.SL.Sem
open Cert.ReferenceIdeal Cert.ReferenceIdeal.Gen Cert.ReferenceIdeal.Read Cert.Harmonics

/-- The constant one, read at any point. -/
private theorem refOne_apply (b : Fin 32) (n : Fin 32768) : val_main_v97 (F := Ideal) (ix2 b n) = 1 := by
  rw [val_main_v97_apply, val_main_cst_23_apply]
  exact Ideal.ofBits_one_f32

/-- The degree-2 piece: one monomial 1 · Y against the single row of W2. -/
private theorem refPiece2 (X : PtsR) (W2 : (⟨S1x4, .f32⟩ : BufTy).Contents (Elt Ideal)) (b : Fin 32) (n : Fin 32768) (k : Fin 5) (u : Fin 4) :
    val_main_v127 (F := Ideal) X W2 (ix4 b n k u)
      = (1 * deg2 k (X (ix3 b n (0 : Fin 3))) (X (ix3 b n (1 : Fin 3))) (X (ix3 b n (2 : Fin 3)))) * W2 (ix2 0 u) := by
  rw [val_main_v127_apply, Fin.sum_univ_one]
  have el : lidx_main_v127 (ix4 b n k u) 0 = ix4 b n k (0 : Fin 1) := funext fun a => match a with
    | ⟨0, _⟩ => rfl | ⟨1, _⟩ => rfl | ⟨2, _⟩ => rfl | ⟨3, _⟩ => rfl
  have er : ridx_main_v127 (ix4 b n k u) 0 = ix2 (0 : Fin 1) u := funext fun a => match a with
    | ⟨0, _⟩ => rfl | ⟨1, _⟩ => rfl
  rw [el, er, val_main_v117_apply]
  have e117 : idx_main_v117 (ix4 b n k (0 : Fin 1)) = ix3 b n k := funext fun a => match a with
    | ⟨0, _⟩ => rfl | ⟨1, _⟩ => rfl | ⟨2, _⟩ => rfl
  rw [e117, val_main_v116_apply, val_main_v115_apply]
  have e115 : idx_main_v115 (ix3 b n k) = ix3 b n (0 : Fin 1) := funext fun a => match a with
    | ⟨0, _⟩ => rfl | ⟨1, _⟩ => rfl | ⟨2, _⟩ => rfl
  rw [e115, val_main_v114_apply]
  have e114 : idx_main_v114 (ix3 b n (0 : Fin 1)) = ix2 b n := funext fun a => match a with
    | ⟨0, _⟩ => rfl | ⟨1, _⟩ => rfl
  rw [e114, refOne_apply, deg2_apply]
  rfl

/-- The degree-3 piece: one monomial 1 · Y against the single row of W3. -/
private theorem refPiece3 (X : PtsR) (W3 : (⟨S1x4, .f32⟩ : BufTy).Contents (Elt Ideal)) (b : Fin 32) (n : Fin 32768) (k : Fin 7) (u : Fin 4) :
    val_main_v128 (F := Ideal) X W3 (ix4 b n k u)
      = (1 * deg3 k (X (ix3 b n (0 : Fin 3))) (X (ix3 b n (1 : Fin 3))) (X (ix3 b n (2 : Fin 3)))) * W3 (ix2 0 u) := by
  rw [val_main_v128_apply, Fin.sum_univ_one]
  have el : lidx_main_v128 (ix4 b n k u) 0 = ix4 b n k (0 : Fin 1) := funext fun a => match a with
    | ⟨0, _⟩ => rfl | ⟨1, _⟩ => rfl | ⟨2, _⟩ => rfl | ⟨3, _⟩ => rfl
  have er : ridx_main_v128 (ix4 b n k u) 0 = ix2 (0 : Fin 1) u := funext fun a => match a with
    | ⟨0, _⟩ => rfl | ⟨1, _⟩ => rfl
  rw [el, er, val_main_v121_apply]
  have e121 : idx_main_v121 (ix4 b n k (0 : Fin 1)) = ix3 b n k := funext fun a => match a with
    | ⟨0, _⟩ => rfl | ⟨1, _⟩ => rfl | ⟨2, _⟩ => rfl
  rw [e121, val_main_v120_apply, val_main_v119_apply]
  have e119 : idx_main_v119 (ix3 b n k) = ix3 b n (0 : Fin 1) := funext fun a => match a with
    | ⟨0, _⟩ => rfl | ⟨1, _⟩ => rfl | ⟨2, _⟩ => rfl
  rw [e119, val_main_v118_apply]
  have e118 : idx_main_v118 (ix3 b n (0 : Fin 1)) = ix2 b n := funext fun a => match a with
    | ⟨0, _⟩ => rfl | ⟨1, _⟩ => rfl
  rw [e118, refOne_apply, deg3_apply]
  rfl

/-- The two monomials of degree 1, joined along the last axis: the first is 1 · Y. -/
private theorem refMono1_fst (X : PtsR) (b : Fin 32) (n : Fin 32768) (k : Fin 3) :
    val_main_v113 (F := Ideal) X (ix4 b n k (0 : Fin 2))
      = 1 * deg1 k (X (ix3 b n (0 : Fin 3))) (X (ix3 b n (1 : Fin 3))) (X (ix3 b n (2 : Fin 3))) := by
  unfold val_main_v113
  refine (concatenate_apply_piece (t := S32x32768x3x2) (3 : Fin 4) _ _ _ 0 ?_ S32x32768x3x1 (val_main_v111 (F := Ideal) X) ?_ rfl 0 ?_
    (ix4 b n k (0 : Fin 1)) ?_ ?_).trans ?_
  · exact (by decide : (0 : Nat) < 2)
  · rfl
  · rfl
  · intro a ha
    match a with
    | ⟨0, _⟩ => rfl
    | ⟨1, _⟩ => rfl
    | ⟨2, _⟩ => rfl
    | ⟨3, _⟩ => exact absurd rfl ha
  · rfl
  · rw [val_main_v111_apply]
    have e111 : idx_main_v111 (ix4 b n k (0 : Fin 1)) = ix3 b n k := funext fun a => match a with
      | ⟨0, _⟩ => rfl | ⟨1, _⟩ => rfl | ⟨2, _⟩ => rfl
    rw [e111, val_main_v107_apply, val_main_v106_apply]
    have e106 : idx_main_v106 (ix3 b n k) = ix3 b n (0 : Fin 1) := funext fun a => match a with
      | ⟨0, _⟩ => rfl | ⟨1, _⟩ => rfl | ⟨2, _⟩ => rfl
    rw [e106, val_main_v105_apply]
    have e105 : idx_main_v105 (ix3 b n (0 : Fin 1)) = ix2 b n := funext fun a => match a with
      | ⟨0, _⟩ => rfl | ⟨1, _⟩ => rfl
    rw [e105, refOne_apply, deg1_apply]
    rfl

/-- The second is |p|² · Y, the squared norm as a sum started at zero. -/
private theorem refMono1_snd (X : PtsR) (b : Fin 32) (n : Fin 32768) (k : Fin 3) :
    val_main_v113 (F := Ideal) X (ix4 b n k (1 : Fin 2))
      = (0 + (X (ix3 b n (0 : Fin 3)) * X (ix3 b n (0 : Fin 3)) + X (ix3 b n (1 : Fin 3)) * X (ix3 b n (1 : Fin 3))
              + X (ix3 b n (2 : Fin 3)) * X (ix3 b n (2 : Fin 3))))
          * deg1 k (X (ix3 b n (0 : Fin 3))) (X (ix3 b n (1 : Fin 3))) (X (ix3 b n (2 : Fin 3))) := by
  unfold val_main_v113
  refine (concatenate_apply_piece (t := S32x32768x3x2) (3 : Fin 4) _ _ _ 1 ?_ S32x32768x3x1 (val_main_v112 (F := Ideal) X) ?_ rfl 1 ?_
    (ix4 b n k (0 : Fin 1)) ?_ ?_).trans ?_
  · exact (by decide : (1 : Nat) < 2)
  · rfl
  · rfl
  · intro a ha
    match a with
    | ⟨0, _⟩ => rfl
    | ⟨1, _⟩ => rfl
    | ⟨2, _⟩ => rfl
    | ⟨3, _⟩ => exact absurd rfl ha
  · rfl
  · rw [val_main_v112_apply]
    have e112 : idx_main_v112 (ix4 b n k (0 : Fin 1)) = ix3 b n k := funext fun a => match a with
      | ⟨0, _⟩ => rfl | ⟨1, _⟩ => rfl | ⟨2, _⟩ => rfl
    rw [e112, val_main_v110_apply, val_main_v109_apply]
    have e109 : idx_main_v109 (ix3 b n k) = ix3 b n (0 : Fin 1) := funext fun a => match a with
      | ⟨0, _⟩ => rfl | ⟨1, _⟩ => rfl | ⟨2, _⟩ => rfl
    rw [e109, val_main_v108_apply]
    have e108 : idx_main_v108 (ix3 b n (0 : Fin 1)) = ix2 b n := funext fun a => match a with
      | ⟨0, _⟩ => rfl | ⟨1, _⟩ => rfl
    rw [e108, normSq_apply, deg1_apply]
    rfl

/-- The degree-1 piece: the monomials 1 · Y and |p|² · Y against the two rows of W1. -/
private theorem refPiece1 (X : PtsR) (W1 : (⟨S2x4, .f32⟩ : BufTy).Contents (Elt Ideal)) (b : Fin 32) (n : Fin 32768) (k : Fin 3) (u : Fin 4) :
    val_main_v126 (F := Ideal) X W1 (ix4 b n k u)
      = (1 * deg1 k (X (ix3 b n (0 : Fin 3))) (X (ix3 b n (1 : Fin 3))) (X (ix3 b n (2 : Fin 3)))) * W1 (ix2 0 u)
        + ((0 + (X (ix3 b n (0 : Fin 3)) * X (ix3 b n (0 : Fin 3)) + X (ix3 b n (1 : Fin 3)) * X (ix3 b n (1 : Fin 3))
              + X (ix3 b n (2 : Fin 3)) * X (ix3 b n (2 : Fin 3))))
          * deg1 k (X (ix3 b n (0 : Fin 3))) (X (ix3 b n (1 : Fin 3))) (X (ix3 b n (2 : Fin 3)))) * W1 (ix2 1 u) := by
  rw [val_main_v126_apply, Fin.sum_univ_two]
  have el0 : lidx_main_v126 (ix4 b n k u) 0 = ix4 b n k (0 : Fin 2) := funext fun a => match a with
    | ⟨0, _⟩ => rfl | ⟨1, _⟩ => rfl | ⟨2, _⟩ => rfl | ⟨3, _⟩ => rfl
  have el1 : lidx_main_v126 (ix4 b n k u) 1 = ix4 b n k (1 : Fin 2) := funext fun a => match a with
    | ⟨0, _⟩ => rfl | ⟨1, _⟩ => rfl | ⟨2, _⟩ => rfl | ⟨3, _⟩ => rfl
  have er0 : ridx_main_v126 (ix4 b n k u) 0 = ix2 (0 : Fin 2) u := funext fun a => match a with
    | ⟨0, _⟩ => rfl | ⟨1, _⟩ => rfl
  have er1 : ridx_main_v126 (ix4 b n k u) 1 = ix2 (1 : Fin 2) u := funext fun a => match a with
    | ⟨0, _⟩ => rfl | ⟨1, _⟩ => rfl
  rw [el0, el1, er0, er1, refMono1_fst, refMono1_snd]

/-- The two monomials of degree 0, joined along the last axis: the first is 1 · (c0 · 1). -/
private theorem refMono0_fst (X : PtsR) (b : Fin 32) (n : Fin 32768) :
    val_main_v104 (F := Ideal) X (ix4 b n (0 : Fin 1) (0 : Fin 2)) = 1 * (c0 * 1) := by
  unfold val_main_v104
  refine (concatenate_apply_piece (t := S32x32768x1x2) (3 : Fin 4) _ _ _ 0 ?_ S32x32768x1x1 (val_main_v102 (F := Ideal)) ?_ rfl 0 ?_
    (ix4 b n (0 : Fin 1) (0 : Fin 1)) ?_ ?_).trans ?_
  · exact (by decide : (0 : Nat) < 2)
  · rfl
  · rfl
  · intro a ha
    match a with
    | ⟨0, _⟩ => rfl
    | ⟨1, _⟩ => rfl
    | ⟨2, _⟩ => rfl
    | ⟨3, _⟩ => exact absurd rfl ha
  · rfl
  · rw [val_main_v102_apply]
    have e102 : idx_main_v102 (ix4 b n (0 : Fin 1) (0 : Fin 1)) = ix3 b n (0 : Fin 1) := funext fun a => match a with
      | ⟨0, _⟩ => rfl | ⟨1, _⟩ => rfl | ⟨2, _⟩ => rfl
    rw [e102, val_main_v99_apply, val_main_v98_apply]
    have e98 : idx_main_v98 (ix3 b n (0 : Fin 1)) = ix2 b n := funext fun a => match a with
      | ⟨0, _⟩ => rfl | ⟨1, _⟩ => rfl
    rw [e98, refOne_apply, deg0_apply]
    rfl

/-- The second is |p|² · (c0 · 1). -/
private theorem refMono0_snd (X : PtsR) (b : Fin 32) (n : Fin 32768) :
    val_main_v104 (F := Ideal) X (ix4 b n (0 : Fin 1) (1 : Fin 2))
      = (0 + (X (ix3 b n (0 : Fin 3)) * X (ix3 b n (0 : Fin 3)) + X (ix3 b n (1 : Fin 3)) * X (ix3 b n (1 : Fin 3))
              + X (ix3 b n (2 : Fin 3)) * X (ix3 b n (2 : Fin 3)))) * (c0 * 1) := by
  unfold val_main_v104
  refine (concatenate_apply_piece (t := S32x32768x1x2) (3 : Fin 4) _ _ _ 1 ?_ S32x32768x1x1 (val_main_v103 (F := Ideal) X) ?_ rfl 1 ?_
    (ix4 b n (0 : Fin 1) (0 : Fin 1)) ?_ ?_).trans ?_
  · exact (by decide : (1 : Nat) < 2)
  · rfl
  · rfl
  · intro a ha
    match a with
    | ⟨0, _⟩ => rfl
    | ⟨1, _⟩ => rfl
    | ⟨2, _⟩ => rfl
    | ⟨3, _⟩ => exact absurd rfl ha
  · rfl
  · rw [val_main_v103_apply]
    have e103 : idx_main_v103 (ix4 b n (0 : Fin 1) (0 : Fin 1)) = ix3 b n (0 : Fin 1) := funext fun a => match a with
      | ⟨0, _⟩ => rfl | ⟨1, _⟩ => rfl | ⟨2, _⟩ => rfl
    rw [e103, val_main_v101_apply, val_main_v100_apply]
    have e100 : idx_main_v100 (ix3 b n (0 : Fin 1)) = ix2 b n := funext fun a => match a with
      | ⟨0, _⟩ => rfl | ⟨1, _⟩ => rfl
    rw [e100, normSq_apply, deg0_apply]
    rfl

/-- The degree-0 piece: the monomials 1 · (c0 · 1) and |p|² · (c0 · 1) against the two rows of W0, plus the bias. -/
private theorem refPiece0 (X : PtsR) (W0 : (⟨S2x4, .f32⟩ : BufTy).Contents (Elt Ideal)) (b0 : (⟨S4, .f32⟩ : BufTy).Contents (Elt Ideal))
    (b : Fin 32) (n : Fin 32768) (u : Fin 4) :
    val_main_v125 (F := Ideal) X W0 b0 (ix4 b n (0 : Fin 1) u)
      = (1 * (c0 * 1)) * W0 (ix2 0 u)
        + ((0 + (X (ix3 b n (0 : Fin 3)) * X (ix3 b n (0 : Fin 3)) + X (ix3 b n (1 : Fin 3)) * X (ix3 b n (1 : Fin 3))
              + X (ix3 b n (2 : Fin 3)) * X (ix3 b n (2 : Fin 3)))) * (c0 * 1)) * W0 (ix2 1 u)
        + b0 (ix1 u) := by
  rw [val_main_v125_apply, val_main_v122_apply, Fin.sum_univ_two, val_main_v124_apply]
  have el0 : lidx_main_v122 (ix4 b n (0 : Fin 1) u) 0 = ix4 b n (0 : Fin 1) (0 : Fin 2) := funext fun a => match a with
    | ⟨0, _⟩ => rfl | ⟨1, _⟩ => rfl | ⟨2, _⟩ => rfl | ⟨3, _⟩ => rfl
  have el1 : lidx_main_v122 (ix4 b n (0 : Fin 1) u) 1 = ix4 b n (0 : Fin 1) (1 : Fin 2) := funext fun a => match a with
    | ⟨0, _⟩ => rfl | ⟨1, _⟩ => rfl | ⟨2, _⟩ => rfl | ⟨3, _⟩ => rfl
  have er0 : ridx_main_v122 (ix4 b n (0 : Fin 1) u) 0 = ix2 (0 : Fin 2) u := funext fun a => match a with
    | ⟨0, _⟩ => rfl | ⟨1, _⟩ => rfl
  have er1 : ridx_main_v122 (ix4 b n (0 : Fin 1) u) 1 = ix2 (1 : Fin 2) u := funext fun a => match a with
    | ⟨0, _⟩ => rfl | ⟨1, _⟩ => rfl
  have e124 : idx_main_v124 (ix4 b n (0 : Fin 1) u) = ix4 (0 : Fin 1) (0 : Fin 1) (0 : Fin 1) u := funext fun a => match a with
    | ⟨0, _⟩ => rfl | ⟨1, _⟩ => rfl | ⟨2, _⟩ => rfl | ⟨3, _⟩ => rfl
  rw [el0, el1, er0, er1, e124, refMono0_fst, refMono0_snd, val_main_v123_apply]
  have e123 : idx_main_v123 (ix4 (0 : Fin 1) (0 : Fin 1) (0 : Fin 1) u) = ix1 u := funext fun a => match a with
    | ⟨0, _⟩ => rfl
  rw [e123]
  rfl

/-- Entry (b, n, m, u) of the reference's result is entry (m, u) of the expanded row of point (b, n). -/
theorem result_apply (X : (⟨S32x32768x3, .f32⟩ : BufTy).Contents (Elt Ideal)) (W0 : (⟨S2x4, .f32⟩ : BufTy).Contents (Elt Ideal))
    (b0 : (⟨S4, .f32⟩ : BufTy).Contents (Elt Ideal)) (W1 : (⟨S2x4, .f32⟩ : BufTy).Contents (Elt Ideal))
    (W2 W3 : (⟨S1x4, .f32⟩ : BufTy).Contents (Elt Ideal)) (b : Fin 32) (n : Fin 32768) (m : Fin 16) (u : Fin 4) :
    val_main_v129 (F := Ideal) X W0 b0 W1 W2 W3 (ix4 b n m u)
      = rowX m u (X (ix3 b n (0 : Fin 3))) (X (ix3 b n (1 : Fin 3))) (X (ix3 b n (2 : Fin 3))) W0 b0 W1 W2 W3 := by
  unfold val_main_v129 rowX
  by_cases h0 : m.val < 1
  · rw [dif_pos h0]
    refine (concatenate_apply_piece (t := S32x32768x16x4) (2 : Fin 4) _ _ _ 0 ?_ S32x32768x1x4 (val_main_v125 (F := Ideal) X W0 b0) ?_ rfl 0 ?_
      (ix4 b n (0 : Fin 1) u) ?_ ?_).trans ?_
    · exact (by decide : (0 : Nat) < 4)
    · rfl
    · rfl
    · intro a ha
      match a with
      | ⟨0, _⟩ => rfl
      | ⟨1, _⟩ => rfl
      | ⟨2, _⟩ => exact absurd rfl ha
      | ⟨3, _⟩ => rfl
    · show 0 + 0 = m.val
      omega
    · exact refPiece0 X W0 b0 b n u
  · rw [dif_neg h0]
    by_cases h1 : m.val < 4
    · rw [dif_pos h1]
      refine (concatenate_apply_piece (t := S32x32768x16x4) (2 : Fin 4) _ _ _ 1 ?_ S32x32768x3x4 (val_main_v126 (F := Ideal) X W1) ?_ rfl 1 ?_
        (ix4 b n (⟨m.val - 1, by omega⟩ : Fin 3) u) ?_ ?_).trans ?_
      · exact (by decide : (1 : Nat) < 4)
      · rfl
      · rfl
      · intro a ha
        match a with
        | ⟨0, _⟩ => rfl
        | ⟨1, _⟩ => rfl
        | ⟨2, _⟩ => exact absurd rfl ha
        | ⟨3, _⟩ => rfl
      · show 1 + (m.val - 1) = m.val
        omega
      · exact refPiece1 X W1 b n _ u
    · rw [dif_neg h1]
      by_cases h2 : m.val < 9
      · rw [dif_pos h2]
        refine (concatenate_apply_piece (t := S32x32768x16x4) (2 : Fin 4) _ _ _ 2 ?_ S32x32768x5x4 (val_main_v127 (F := Ideal) X W2) ?_ rfl 4 ?_
          (ix4 b n (⟨m.val - 4, by omega⟩ : Fin 5) u) ?_ ?_).trans ?_
        · exact (by decide : (2 : Nat) < 4)
        · rfl
        · rfl
        · intro a ha
          match a with
          | ⟨0, _⟩ => rfl
          | ⟨1, _⟩ => rfl
          | ⟨2, _⟩ => exact absurd rfl ha
          | ⟨3, _⟩ => rfl
        · show 4 + (m.val - 4) = m.val
          omega
        · exact refPiece2 X W2 b n _ u
      · rw [dif_neg h2]
        have hm := m.isLt
        refine (concatenate_apply_piece (t := S32x32768x16x4) (2 : Fin 4) _ _ _ 3 ?_ S32x32768x7x4 (val_main_v128 (F := Ideal) X W3) ?_ rfl 9 ?_
          (ix4 b n (⟨m.val - 9, by omega⟩ : Fin 7) u) ?_ ?_).trans ?_
        · exact (by decide : (3 : Nat) < 4)
        · rfl
        · rfl
        · intro a ha
          match a with
          | ⟨0, _⟩ => rfl
          | ⟨1, _⟩ => rfl
          | ⟨2, _⟩ => exact absurd rfl ha
          | ⟨3, _⟩ => rfl
        · show 9 + (m.val - 9) = m.val
          omega
        · exact refPiece3 X W3 b n _ u

end Cert.ReferenceIdeal.RowValue

end
-- ==== Proof.lean ====
/-
  The certificate of a spherical-harmonic feature kernel against its reference, over the extended reals.

  Both programs map an array of 32 × 32768 points of 3-space and five small weight arrays to a [32, 32768, 16, 4] array:
  for each point, the sixteen real spherical-harmonic polynomials of degrees 0 to 3 of its coordinates, each spread
  over four channels by the weights — degrees 0 and 1 through two monomials 1 and |p|², degrees 2 and 3 through the
  monomial 1 alone —, the degree-0 entry with a bias.

  The kernel computes each entry in FACTORED form, Y · (w₀ + |p|² · w₁), 8192 points at a time, into a [32, 32768, 64]
  array which the host then reshapes (Proof/KernelDeg.lean, KernelRow.lean: the body's stored value entry by entry;
  Proof/KernelArr.lean: the blocks tile the array, the reshape, the run).  The reference computes it in EXPANDED form,
  (1 · Y) · w₀ + (|p|² · Y) · w₁, a contraction over the monomials (Proof/RefDeg.lean, RefRow.lean: its result entry by
  entry, over the generated reading of its operations).  The harmonics themselves are the same expressions in both
  programs, constant for constant.  The two forms agree by distributivity, which holds for real numbers and fails at
  infinities: this is where the precondition — every input finite — is used (Proof/Finite.lean: the points and the two
  two-row weight matrices are real; Proof/Algebra.lean: the law).  Proof/Spec.lean states the mathematics.

  The kernel's two frames are the generated ones; the reference's frame is its generated run with the result dropped;
  the idealization rewrote nothing, so there is nothing to preserve.
-/
import proofs.«129319_j8839042695322_1_alg».proof.Defs
import proofs.«129319_j8839042695322_1_alg».proof.Proof.Gen.Kernel
import proofs.«129319_j8839042695322_1_alg».proof.Proof.Gen.Kernel.Skeleton
import proofs.«129319_j8839042695322_1_alg».proof.Proof.Gen.Kernel.Launch
import proofs.«129319_j8839042695322_1_alg».proof.Proof.Gen.Kernel.Points
import proofs.«129319_j8839042695322_1_alg».proof.Proof.Gen.Kernel.Frame
import proofs.«129319_j8839042695322_1_alg».proof.Proof.Gen.KernelIdeal
import proofs.«129319_j8839042695322_1_alg».proof.Proof.Gen.KernelIdeal.Skeleton
import proofs.«129319_j8839042695322_1_alg».proof.Proof.Gen.KernelIdeal.Launch
import proofs.«129319_j8839042695322_1_alg».proof.Proof.Gen.KernelIdeal.Points
import proofs.«129319_j8839042695322_1_alg».proof.Proof.Gen.KernelIdeal.Frame
import proofs.«129319_j8839042695322_1_alg».proof.Proof.Gen.ReferenceIdeal
import proofs.«129319_j8839042695322_1_alg».proof.Proof.Gen.Pre_finite_inputs
import proofs.«129319_j8839042695322_1_alg».proof.Proof.Gen.ReferenceIdeal.Run
import proofs.«129319_j8839042695322_1_alg».proof.Proof.Gen.ReferenceIdeal.Read
import proofs.«129319_j8839042695322_1_alg».proof.Proof.Spec
import proofs.«129319_j8839042695322_1_alg».proof.Proof.Algebra
import proofs.«129319_j8839042695322_1_alg».proof.Proof.Finite
import proofs.«129319_j8839042695322_1_alg».proof.Proof.KernelArr
import proofs.«129319_j8839042695322_1_alg».proof.Proof.RefRow
import Idealize.ShloMosaic.Adequacy
import Idealize.ShloMosaic.Init

set_option maxRecDepth 16384

noncomputable section

namespace Cert.Proof

open Idealize.ShloMosaic Idealize.ShloMosaic.ValueIdx Idealize.SL.Sem Cert.Harmonics

/-- The word-level kernel terminates, faults nowhere and leaves its arguments alone. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- So does the reference: its run, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- On finite inputs the reference's result is `G` of its arguments: entry by entry the expanded row, which on the real
    points and weights the precondition gives is the factored row. -/
theorem reference_eq_G (X : Pts) (W0 : W24) (b0 : B4) (W1 : W24) (W2 W3 : W14)
    (h : Cert.Pre_finite_inputs.fn (F := Ideal) X W0 b0 W1 W2 W3 = fun _ => 1#1) :
    Cert.ReferenceIdeal.Read.val_main_v129 (F := Ideal) X W0 b0 W1 W2 W3 = G X W0 b0 W1 W2 W3 := by
  obtain ⟨hX, hW0, hW1⟩ := Cert.Pre_finite_inputs.Decode.reals_of_pre X W0 b0 W1 W2 W3 h
  funext i
  have hi : i = ix4 (⟨(i 0).val, (i 0).isLt⟩ : Fin 32) (⟨(i 1).val, (i 1).isLt⟩ : Fin 32768) (⟨(i 2).val, (i 2).isLt⟩ : Fin 16)
      (⟨(i 3).val, (i 3).isLt⟩ : Fin 4) := by
    funext a
    match a with
    | ⟨0, _⟩ => rfl
    | ⟨1, _⟩ => rfl
    | ⟨2, _⟩ => rfl
    | ⟨3, _⟩ => rfl
  conv_lhs => rw [hi]
  rw [Cert.ReferenceIdeal.RowValue.result_apply, rowX_eq_row _ _ _ _ _ _ _ _ _ _ (hX _) (hX _) (hX _) hW0 hW1]
  rfl

/-- Over the extended reals, from memories that agree on the arguments, both programs end with the same result. -/
theorem algebraic : Cert.algebraic_KernelIdeal_ReferenceIdeal := by
  intro m ρ m' ρ' hpre hagree
  refine ⟨_, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v129_eq, (hagree c).1, (hagree c).2.1, (hagree c).2.2.1, (hagree c).2.2.2.1,
    (hagree c).2.2.2.2.1, (hagree c).2.2.2.2.2]
  exact reference_eq_G _ _ _ _ _ _ (hpre c)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
